-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8 : Shape := ⟨2, ![16, 8]⟩
abbrev S500000x3 : Shape := ⟨2, ![500000, 3]⟩
abbrev S8000000 : Shape := ⟨1, ![8000000]⟩
abbrev S_ : Shape := ⟨0, ![]⟩

class Facts : Prop where
  bcast_S_S16x8 : S_.BroadcastsInDim S16x8 (![] : Fin 0 → Fin S16x8.rank)
  reducesTo_S16x8_S_d0_1 : S16x8.ReducesTo [0, 1] S_
  h_S_ : 0 < S_.numel
  bcast_S_S500000x3 : S_.BroadcastsInDim S500000x3 (![] : Fin 0 → Fin S500000x3.rank)
  reducesTo_S500000x3_S_d0_1 : S500000x3.ReducesTo [0, 1] S_
  bcast_S_S8000000 : S_.BroadcastsInDim S8000000 (![] : Fin 0 → Fin S8000000.rank)
  reducesTo_S8000000_S_d0 : S8000000.ReducesTo [0] S_

variable [Facts]

def fn_part1 {F : FTy → Type} [FloatOps F] (main_arg3 : IVec S8000000 32) (main_v12 : IVec S_ 1) (main_v15 : IVec S_ 1) : IVec S_ 1 :=
  let main_v16 : IVec S_ 1 := andi main_v12 main_v15
  let main_c_6 : IVec S_ 32 := constantI S_ 32 0#32
  let main_v17 : IVec S8000000 32 := broadcastInDim S8000000 ![] bcast_S_S8000000 main_c_6
  let main_v18 : IVec S8000000 1 := cmpi .sge main_arg3 main_v17
  let main_c_7 : IVec S_ 1 := constantI S_ 1 1#1
  let main_v19 : IVec S_ 1 := (fun x v => Host.reduce IntOp.andi x v reducesTo_S8000000_S_d0 h_S_) main_v18 main_c_7
  let main_v20 : IVec S_ 1 := andi main_v16 main_v19
  let main_c_8 : IVec S_ 32 := constantI S_ 32 500000#32
  let main_v21 : IVec S8000000 32 := broadcastInDim S8000000 ![] bcast_S_S8000000 main_c_8
  let main_v22 : IVec S8000000 1 := cmpi .slt main_arg3 main_v21
  let main_c_9 : IVec S_ 1 := constantI S_ 1 1#1
  let main_v23 : IVec S_ 1 := (fun x v => Host.reduce IntOp.andi x v reducesTo_S8000000_S_d0 h_S_) main_v22 main_c_9
  let main_v24 : IVec S_ 1 := andi main_v20 main_v23
  main_v24

def fn {F : FTy → Type} [FloatOps F] (main_arg0 : FVec F S16x8 .f32) (main_arg1 : FVec F S500000x3 .f32) (main_arg2 : IVec S8000000 32) (main_arg3 : IVec S8000000 32) : IVec S_ 1 :=
  let main_v0 : FVec F S16x8 .f32 := Host.absf main_arg0
  let main_cst : FVec F S_ .f32 := constant S_ .f32 0x7F800000#32
  let main_v1 : FVec F S16x8 .f32 := broadcastInDim S16x8 ![] bcast_S_S16x8 main_cst
  let main_v2 : IVec S16x8 1 := cmpf .olt main_v0 main_v1
  let main_c : IVec S_ 1 := constantI S_ 1 1#1
  let main_v3 : IVec S_ 1 := (fun x v => Host.reduce IntOp.andi x v reducesTo_S16x8_S_d0_1 h_S_) main_v2 main_c
  let main_v4 : FVec F S500000x3 .f32 := Host.absf main_arg1
  let main_cst_0 : FVec F S_ .f32 := constant S_ .f32 0x7F800000#32
  let main_v5 : FVec F S500000x3 .f32 := broadcastInDim S500000x3 ![] bcast_S_S500000x3 main_cst_0
  let main_v6 : IVec S500000x3 1 := cmpf .olt main_v4 main_v5
  let main_c_1 : IVec S_ 1 := constantI S_ 1 1#1
  let main_v7 : IVec S_ 1 := (fun x v => Host.reduce IntOp.andi x v reducesTo_S500000x3_S_d0_1 h_S_) main_v6 main_c_1
  let main_v8 : IVec S_ 1 := andi main_v3 main_v7
  let main_c_2 : IVec S_ 32 := constantI S_ 32 0#32
  let main_v9 : IVec S8000000 32 := broadcastInDim S8000000 ![] bcast_S_S8000000 main_c_2
  let main_v10 : IVec S8000000 1 := cmpi .sge main_arg2 main_v9
  let main_c_3 : IVec S_ 1 := constantI S_ 1 1#1
  let main_v11 : IVec S_ 1 := (fun x v => Host.reduce IntOp.andi x v reducesTo_S8000000_S_d0 h_S_) main_v10 main_c_3
  let main_v12 : IVec S_ 1 := andi main_v8 main_v11
  let main_c_4 : IVec S_ 32 := constantI S_ 32 16#32
  let main_v13 : IVec S8000000 32 := broadcastInDim S8000000 ![] bcast_S_S8000000 main_c_4
  let main_v14 : IVec S8000000 1 := cmpi .slt main_arg2 main_v13
  let main_c_5 : IVec S_ 1 := constantI S_ 1 1#1
  let main_v15 : IVec S_ 1 := (fun x v => Host.reduce IntOp.andi x v reducesTo_S8000000_S_d0 h_S_) main_v14 main_c_5
  fn_part1 (F := F) main_arg3 main_v12 main_v15
-- ==== Kernel.lean ====
abbrev S16x8 : Shape := ⟨2, ![16, 8]⟩
abbrev S500000x3 : Shape := ⟨2, ![500000, 3]⟩
abbrev S8000000 : Shape := ⟨1, ![8000000]⟩
abbrev S_ : Shape := ⟨0, ![]⟩
abbrev S8000000x1 : Shape := ⟨2, ![8000000, 1]⟩
abbrev S1 : Shape := ⟨1, ![1]⟩
abbrev S1x1 : Shape := ⟨2, ![1, 1]⟩
abbrev S8000000x3 : Shape := ⟨2, ![8000000, 3]⟩
abbrev S8003584 : Shape := ⟨1, ![8003584]⟩
abbrev S8003584x3 : Shape := ⟨2, ![8003584, 3]⟩
abbrev S8003584x11 : Shape := ⟨2, ![8003584, 11]⟩
abbrev S4096 : Shape := ⟨1, ![4096]⟩
abbrev S4096x3 : Shape := ⟨2, ![4096, 3]⟩
abbrev S4096x11 : Shape := ⟨2, ![4096, 11]⟩
abbrev S4096x16 : Shape := ⟨2, ![4096, 16]⟩
abbrev S4096x1 : Shape := ⟨2, ![4096, 1]⟩
abbrev S4096x8 : Shape := ⟨2, ![4096, 8]⟩
abbrev S8000000x11 : Shape := ⟨2, ![8000000, 11]⟩

abbrev nBuf : Space → Nat
  | .hbm => 43
  | .vmem => 7
  | .smem => 0
  | _ => 0

abbrev bufTy : (tb : Table) → Fin (tcTables nBuf tb) → BufTy
  | .hbm, ⟨0, _⟩ => ⟨S16x8, .f32⟩
  | .hbm, ⟨1, _⟩ => ⟨S500000x3, .f32⟩
  | .hbm, ⟨2, _⟩ => ⟨S8000000, .i32⟩
  | .hbm, ⟨3, _⟩ => ⟨S8000000, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S8000000, .i32⟩
  | .hbm, ⟨8, _⟩ => ⟨S8000000, .i32⟩
  | .hbm, ⟨9, _⟩ => ⟨S_, .i32⟩
  | .hbm, ⟨10, _⟩ => ⟨S8000000, .i32⟩
  | .hbm, ⟨11, _⟩ => ⟨S8000000, .i32⟩
  | .hbm, ⟨12, _⟩ => ⟨S_, .i32⟩
  | .hbm, ⟨13, _⟩ => ⟨S8000000, .i32⟩
  | .hbm, ⟨14, _⟩ => ⟨S8000000, .i1⟩
  | .hbm, ⟨15, _⟩ => ⟨S_, .i32⟩
  | .hbm, ⟨16, _⟩ => ⟨S8000000, .i32⟩
  | .hbm, ⟨17, _⟩ => ⟨S8000000, .i32⟩
  | .hbm, ⟨18, _⟩ => ⟨S8000000, .i32⟩
  | .hbm, ⟨19, _⟩ => ⟨S8000000x1, .i32⟩
  | .hbm, ⟨20, _⟩ => ⟨S1, .i32⟩
  | .hbm, ⟨21, _⟩ => ⟨S_, .i32⟩
  | .hbm, ⟨22, _⟩ => ⟨S8000000x1, .i32⟩
  | .hbm, ⟨23, _⟩ => ⟨S8000000x1, .i1⟩
  | .hbm, ⟨24, _⟩ => ⟨S1x1, .i32⟩
  | .hbm, ⟨25, _⟩ => ⟨S8000000x1, .i32⟩
  | .hbm, ⟨26, _⟩ => ⟨S8000000x1, .i1⟩
  | .hbm, ⟨27, _⟩ => ⟨S8000000x1, .i1⟩
  | .hbm, ⟨28, _⟩ => ⟨S_, .i1⟩
  | .hbm, ⟨29, _⟩ => ⟨S8000000, .i1⟩
  | .hbm, ⟨30, _⟩ => ⟨S8000000x3, .f32⟩
  | .hbm, ⟨31, _⟩ => ⟨S8000000x3, .i1⟩
  | .hbm, ⟨32, _⟩ => ⟨S_, .f32⟩
  | .hbm, ⟨33, _⟩ => ⟨S8000000x3, .f32⟩
  | .hbm, ⟨34, _⟩ => ⟨S8000000x3, .f32⟩
  | .hbm, ⟨35, _⟩ => ⟨S_, .i32⟩
  | .hbm, ⟨36, _⟩ => ⟨S_, .i32⟩
  | .hbm, ⟨37, _⟩ => ⟨S8003584, .i32⟩
  | .hbm, ⟨38, _⟩ => ⟨S_, .i32⟩
  | .hbm, ⟨39, _⟩ => ⟨S_, .f32⟩
  | .hbm, ⟨40, _⟩ => ⟨S8003584x3, .f32⟩
  | .hbm, ⟨41, _⟩ => ⟨S8003584x11, .f32⟩
  | .hbm, ⟨42, _⟩ => ⟨S8000000x11, .f32⟩
  | .local _ .vmem, ⟨0, _⟩ => ⟨S4096, .i32⟩
  | .local _ .vmem, ⟨1, _⟩ => ⟨S4096, .i32⟩
  | .local _ .vmem, ⟨2, _⟩ => ⟨S4096x3, .f32⟩
  | .local _ .vmem, ⟨3, _⟩ => ⟨S4096x3, .f32⟩
  | .local _ .vmem, ⟨4, _⟩ => ⟨S16x8, .f32⟩
  | .local _ .vmem, ⟨5, _⟩ => ⟨S4096x11, .f32⟩
  | .local _ .vmem, ⟨6, _⟩ => ⟨S4096x11, .f32⟩
  | _, _ => ⟨S16x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_call1_c : Ref sig .tc := ⟨.hbm, 12, rfl⟩
abbrev main_call1_v0 : Ref sig .tc := ⟨.hbm, 13, rfl⟩
abbrev main_call1_v1 : Ref sig .tc := ⟨.hbm, 14, rfl⟩
abbrev main_call1_c_0 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_call1_v5 : Ref sig .tc := ⟨.hbm, 19, rfl⟩
abbrev main_call1_c_1 : Ref sig .tc := ⟨.hbm, 20, rfl⟩
abbrev main_call1_c_2 : Ref sig .tc := ⟨.hbm, 21, rfl⟩
abbrev main_call1_v6 : Ref sig .tc := ⟨.hbm, 22, rfl⟩
abbrev main_call1_v7 : Ref sig .tc := ⟨.hbm, 23, rfl⟩
abbrev main_call1_v8 : Ref sig .tc := ⟨.hbm, 24, rfl⟩
abbrev main_call1_v9 : Ref sig .tc := ⟨.hbm, 25, rfl⟩
abbrev main_call1_v10 : Ref sig .tc := ⟨.hbm, 26, rfl⟩
abbrev main_call1_v11 : Ref sig .tc := ⟨.hbm, 27, rfl⟩
abbrev main_call1_c_3 : Ref sig .tc := ⟨.hbm, 28, rfl⟩
abbrev main_call1_v12 : Ref sig .tc := ⟨.hbm, 29, rfl⟩
abbrev main_call1_v13 : Ref sig .tc := ⟨.hbm, 30, rfl⟩
abbrev main_call1_v14 : Ref sig .tc := ⟨.hbm, 31, rfl⟩
abbrev main_call1_cst : Ref sig .tc := ⟨.hbm, 32, rfl⟩
abbrev main_call1_v15 : Ref sig .tc := ⟨.hbm, 33, rfl⟩
abbrev main_v1 : Ref sig .tc := ⟨.hbm, 34, rfl⟩
abbrev main_c_1 : Ref sig .tc := ⟨.hbm, 35, rfl⟩
abbrev main_call2_v0 : Ref sig .tc := ⟨.hbm, 36, rfl⟩
abbrev main_v2 : Ref sig .tc := ⟨.hbm, 37, rfl⟩
abbrev main_c_2 : Ref sig .tc := ⟨.hbm, 38, rfl⟩
abbrev main_call3_v0 : Ref sig .tc := ⟨.hbm, 39, rfl⟩
abbrev main_v3 : Ref sig .tc := ⟨.hbm, 40, rfl⟩
abbrev main_v4 : Ref sig .tc := ⟨.hbm, 41, rfl⟩
abbrev main_v5 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![1954], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x11 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S8000000 : S_.BroadcastsInDim S8000000 (![] : Fin 0 → Fin S8000000.rank)
  bcast_S8000000_S8000000x1_0 : S8000000.BroadcastsInDim S8000000x1 (![0] : Fin 1 → Fin S8000000x1.rank)
  bcast_S_S8000000x1 : S_.BroadcastsInDim S8000000x1 (![] : Fin 0 → Fin S8000000x1.rank)
  bcast_S1_S1x1_1 : S1.BroadcastsInDim S1x1 (![1] : Fin 1 → Fin S1x1.rank)
  bcast_S1x1_S8000000x1_0_1 : S1x1.BroadcastsInDim S8000000x1 (![0, 1] : Fin 2 → Fin S8000000x1.rank)
  reducesTo_S8000000x1_S8000000_d1 : S8000000x1.ReducesTo [1] S8000000
  h_S_ : 0 < S_.numel
  bcast_S8000000_S8000000x3_0 : S8000000.BroadcastsInDim S8000000x3 (![0] : Fin 1 → Fin S8000000x3.rank)
  bcast_S_S8000000x3 : S_.BroadcastsInDim S8000000x3 (![] : Fin 0 → Fin S8000000x3.rank)
  pads_S8000000_S8003584_035840 : S8000000.Pads (![0] : Fin 1 → Nat) ![3584] ![0] S8003584
  pads_S8000000x3_S8003584x3_035840_000 : S8000000x3.Pads (![0, 0] : Fin 2 → Nat) ![3584, 0] ![0, 0] S8003584x3
  inb_S4096_S4096_0 : ∀ a, (![0] : Fin 1 → Nat) a + S4096.size a ≤ S4096.size a
  h_S4096 : 0 < S4096.numel
  shapeCasts_S4096_S4096 : S4096.ShapeCasts S4096
  iota_S4096x16_d1_w32 : S4096x16.Iotas .tc 32 [1]
  shapeCasts_S4096_S4096x1 : S4096.ShapeCasts S4096x1
  broadcasts_S4096x1_S4096x16 : S4096x1.Broadcasts S4096x16
  natLt_1_32 : 1 < 32
  inb_S16x8_S16x8_0_0 : ∀ a, (![0, 0] : Fin 2 → Nat) a + S16x8.size a ≤ S16x8.size a
  h_S16x8 : 0 < S16x8.numel
  inb_S4096x3_S4096x3_0_0 : ∀ a, (![0, 0] : Fin 2 → Nat) a + S4096x3.size a ≤ S4096x3.size a
  h_S4096x3 : 0 < S4096x3.numel
  shapeCasts_S4096x3_S4096x3 : S4096x3.ShapeCasts S4096x3
  concatenates_S4096x8_S4096x3_S4096x11_d1 : Shape.Concatenates [S4096x8, S4096x3] S4096x11 1
  inb_S4096x11_S4096x11_0_0 : ∀ a, (![0, 0] : Fin 2 → Nat) a + S4096x11.size a ≤ S4096x11.size a
  h_S4096x11 : 0 < S4096x11.numel
  slices_S8003584x11_S8000000x11_0_0 : S8003584x11.Slices ![0, 0] S8000000x11
  gather_S500000x3_S8000000x1_S8000000x3_1_0_n_n_0_1_13_wf : GatherDims.WF S500000x3 S8000000x1 S8000000x3 [1] [0] [] [0] [] 1 ![1, 3]
  dot_S4096x16_S16x8_S4096x8_1_0_0_1_n_n_wf : DotDims.WF S4096x16 S16x8 S4096x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096.size a ≤ S8003584.size a
  hwx0_0 : ∀ i : grid0.Coords, EltTy.bits .i32 = 32 ∨ (Rect.block (s := S8003584) S4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x3.size a ≤ S8003584x3.size a
  hwx0_1 : ∀ i : grid0.Coords, EltTy.bits .f32 = 32 ∨ (Rect.block (s := S8003584x3) S4096x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x8.size a ≤ S16x8.size a
  hwx0_2 : ∀ i : grid0.Coords, EltTy.bits .f32 = 32 ∨ (Rect.block (s := S16x8) S16x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x11.size a ≤ S8003584x11.size a
  hwx0_3 : ∀ i : grid0.Coords, EltTy.bits .f32 = 32 ∨ (Rect.block (s := S8003584x11) S4096x11.size (cc0_transform_3 i) (hinb0_3 i)).WholeWords (EltTy.packing .f32)

variable [Facts₀]

def gather_S500000x3_S8000000x1_S8000000x3_1_0_n_n_0_1_13 : GatherDims S500000x3 S8000000x1 S8000000x3 where
  offsetDims := [1]
  collapsedSliceDims := [0]
  operandBatchingDims := []
  startIndicesBatchingDims := []
  startIndexMap := [0]
  indexVectorDim := 1
  sliceSizes := ![1, 3]
  wf := gather_S500000x3_S8000000x1_S8000000x3_1_0_n_n_0_1_13_wf
def dot_S4096x16_S16x8_S4096x8_1_0_0_1_n_n : DotDims S4096x16 S16x8 S4096x8 where
  lhsContracting := [1]
  rhsContracting := [0]
  lhsNonContracting := [0]
  rhsNonContracting := [1]
  lhsBatch := []
  rhsBatch := []
  wf := dot_S4096x16_S16x8_S4096x8_1_0_0_1_n_n_wf

abbrev win0_0 : Pipeline.Window sig grid0 :=
  Pipeline.Window.ofSpec (Memref.whole main_v2) S4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S4096x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S16x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S4096x11.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x8 : Shape := ⟨2, ![16, 8]⟩
abbrev S500000x3 : Shape := ⟨2, ![500000, 3]⟩
abbrev S8000000 : Shape := ⟨1, ![8000000]⟩
abbrev S_ : Shape := ⟨0, ![]⟩
abbrev S8000000x1 : Shape := ⟨2, ![8000000, 1]⟩
abbrev S1 : Shape := ⟨1, ![1]⟩
abbrev S1x1 : Shape := ⟨2, ![1, 1]⟩
abbrev S8000000x8 : Shape := ⟨2, ![8000000, 8]⟩
abbrev S8000000x3 : Shape := ⟨2, ![8000000, 3]⟩
abbrev S8000000x11 : Shape := ⟨2, ![8000000, 11]⟩

abbrev nBuf : Space → Nat
  | .hbm => 51
  | .vmem => 0
  | .smem => 0
  | _ => 0

abbrev bufTy : (tb : Table) → Fin (tcTables nBuf tb) → BufTy
  | .hbm, ⟨0, _⟩ => ⟨S16x8, .f32⟩
  | .hbm, ⟨1, _⟩ => ⟨S500000x3, .f32⟩
  | .hbm, ⟨2, _⟩ => ⟨S8000000, .i32⟩
  | .hbm, ⟨3, _⟩ => ⟨S8000000, .i32⟩
  | .hbm, ⟨4, _⟩ => ⟨S_, .i32⟩
  | .hbm, ⟨5, _⟩ => ⟨S8000000, .i32⟩
  | .hbm, ⟨6, _⟩ => ⟨S8000000, .i1⟩
  | .hbm, ⟨7, _⟩ => ⟨S_, .i32⟩
  | .hbm, ⟨8, _⟩ => ⟨S8000000, .i32⟩
  | .hbm, ⟨9, _⟩ => ⟨S8000000, .i32⟩
  | .hbm, ⟨10, _⟩ => ⟨S8000000, .i32⟩
  | .hbm, ⟨11, _⟩ => ⟨S8000000x1, .i32⟩
  | .hbm, ⟨12, _⟩ => ⟨S1, .i32⟩
  | .hbm, ⟨13, _⟩ => ⟨S_, .i32⟩
  | .hbm, ⟨14, _⟩ => ⟨S8000000x1, .i32⟩
  | .hbm, ⟨15, _⟩ => ⟨S8000000x1, .i1⟩
  | .hbm, ⟨16, _⟩ => ⟨S1x1, .i32⟩
  | .hbm, ⟨17, _⟩ => ⟨S8000000x1, .i32⟩
  | .hbm, ⟨18, _⟩ => ⟨S8000000x1, .i1⟩
  | .hbm, ⟨19, _⟩ => ⟨S8000000x1, .i1⟩
  | .hbm, ⟨20, _⟩ => ⟨S_, .i1⟩
  | .hbm, ⟨21, _⟩ => ⟨S8000000, .i1⟩
  | .hbm, ⟨22, _⟩ => ⟨S8000000x8, .f32⟩
  | .hbm, ⟨23, _⟩ => ⟨S8000000x8, .i1⟩
  | .hbm, ⟨24, _⟩ => ⟨S_, .f32⟩
  | .hbm, ⟨25, _⟩ => ⟨S8000000x8, .f32⟩
  | .hbm, ⟨26, _⟩ => ⟨S8000000x8, .f32⟩
  | .hbm, ⟨27, _⟩ => ⟨S_, .i32⟩
  | .hbm, ⟨28, _⟩ => ⟨S8000000, .i32⟩
  | .hbm, ⟨29, _⟩ => ⟨S8000000, .i1⟩
  | .hbm, ⟨30, _⟩ => ⟨S_, .i32⟩
  | .hbm, ⟨31, _⟩ => ⟨S8000000, .i32⟩
  | .hbm, ⟨32, _⟩ => ⟨S8000000, .i32⟩
  | .hbm, ⟨33, _⟩ => ⟨S8000000, .i32⟩
  | .hbm, ⟨34, _⟩ => ⟨S8000000x1, .i32⟩
  | .hbm, ⟨35, _⟩ => ⟨S1, .i32⟩
  | .hbm, ⟨36, _⟩ => ⟨S_, .i32⟩
  | .hbm, ⟨37, _⟩ => ⟨S8000000x1, .i32⟩
  | .hbm, ⟨38, _⟩ => ⟨S8000000x1, .i1⟩
  | .hbm, ⟨39, _⟩ => ⟨S1x1, .i32⟩
  | .hbm, ⟨40, _⟩ => ⟨S8000000x1, .i32⟩
  | .hbm, ⟨41, _⟩ => ⟨S8000000x1, .i1⟩
  | .hbm, ⟨42, _⟩ => ⟨S8000000x1, .i1⟩
  | .hbm, ⟨43, _⟩ => ⟨S_, .i1⟩
  | .hbm, ⟨44, _⟩ => ⟨S8000000, .i1⟩
  | .hbm, ⟨45, _⟩ => ⟨S8000000x3, .f32⟩
  | .hbm, ⟨46, _⟩ => ⟨S8000000x3, .i1⟩
  | .hbm, ⟨47, _⟩ => ⟨S_, .f32⟩
  | .hbm, ⟨48, _⟩ => ⟨S8000000x3, .f32⟩
  | .hbm, ⟨49, _⟩ => ⟨S8000000x3, .f32⟩
  | .hbm, ⟨50, _⟩ => ⟨S8000000x11, .f32⟩
  | _, _ => ⟨S16x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v1 : Ref sig .tc := ⟨.hbm, 49, rfl⟩
abbrev main_v2 : Ref sig .tc := ⟨.hbm, 50, rfl⟩

abbrev nD : Nat := 1
abbrev τ : Topo := Topo.v7x

variable {F : FTy → Type} [FloatOps F]

class Facts₀ : Prop where
  bcast_S_S8000000 : S_.BroadcastsInDim S8000000 (![] : Fin 0 → Fin S8000000.rank)
  bcast_S8000000_S8000000x1_0 : S8000000.BroadcastsInDim S8000000x1 (![0] : Fin 1 → Fin S8000000x1.rank)
  bcast_S_S8000000x1 : S_.BroadcastsInDim S8000000x1 (![] : Fin 0 → Fin S8000000x1.rank)
  bcast_S1_S1x1_1 : S1.BroadcastsInDim S1x1 (![1] : Fin 1 → Fin S1x1.rank)
  bcast_S1x1_S8000000x1_0_1 : S1x1.BroadcastsInDim S8000000x1 (![0, 1] : Fin 2 → Fin S8000000x1.rank)
  reducesTo_S8000000x1_S8000000_d1 : S8000000x1.ReducesTo [1] S8000000
  h_S_ : 0 < S_.numel
  bcast_S8000000_S8000000x8_0 : S8000000.BroadcastsInDim S8000000x8 (![0] : Fin 1 → Fin S8000000x8.rank)
  bcast_S_S8000000x8 : S_.BroadcastsInDim S8000000x8 (![] : Fin 0 → Fin S8000000x8.rank)
  bcast_S8000000_S8000000x3_0 : S8000000.BroadcastsInDim S8000000x3 (![0] : Fin 1 → Fin S8000000x3.rank)
  bcast_S_S8000000x3 : S_.BroadcastsInDim S8000000x3 (![] : Fin 0 → Fin S8000000x3.rank)
  concatenates_S8000000x8_S8000000x3_S8000000x11_d1 : Shape.Concatenates [S8000000x8, S8000000x3] S8000000x11 1
  gather_S16x8_S8000000x1_S8000000x8_1_0_n_n_0_1_18_wf : GatherDims.WF S16x8 S8000000x1 S8000000x8 [1] [0] [] [0] [] 1 ![1, 8]
  gather_S500000x3_S8000000x1_S8000000x3_1_0_n_n_0_1_13_wf : GatherDims.WF S500000x3 S8000000x1 S8000000x3 [1] [0] [] [0] [] 1 ![1, 3]

variable [Facts₀]

def gather_S16x8_S8000000x1_S8000000x8_1_0_n_n_0_1_18 : GatherDims S16x8 S8000000x1 S8000000x8 where
  offsetDims := [1]
  collapsedSliceDims := [0]
  operandBatchingDims := []
  startIndicesBatchingDims := []
  startIndexMap := [0]
  indexVectorDim := 1
  sliceSizes := ![1, 8]
  wf := gather_S16x8_S8000000x1_S8000000x8_1_0_n_n_0_1_18_wf
def gather_S500000x3_S8000000x1_S8000000x3_1_0_n_n_0_1_13 : GatherDims S500000x3 S8000000x1 S8000000x3 where
  offsetDims := [1]
  collapsedSliceDims := [0]
  operandBatchingDims := []
  startIndicesBatchingDims := []
  startIndexMap := [0]
  indexVectorDim := 1
  sliceSizes := ![1, 3]
  wf := gather_S500000x3_S8000000x1_S8000000x3_1_0_n_n_0_1_13_wf

class Facts : Prop extends Facts₀ where

variable [Facts]
-- ==== Proof.PreRange.lean ====
/-
  The precondition, read back as a range of the two index arrays.

  The precondition is a conjunction of six tests, each an "all entries" reduction by and from 1: two on the
  float tables (left closed here) and four on the index arrays: every process id is at least 0 and below 16,
  every location id is at least 0 and below 500,000, all four comparisons reading the 32-bit words as signed
  numbers.  A word that is nonnegative as a signed number has its top bit clear, so it is the same number read
  unsigned; a word in [0, n) signed is therefore below n unsigned.
-/
import proofs.«422656_j42262478192914_3_alg».proof.Proof.Gen.Pre_finite_inputs
import Idealize.ShloMosaic.Lib.ReduceAll
import Idealize.ShloMosaic.Lib.ValueIdx
import Idealize.ShloMosaic.Lib.StableHlo.Predicate

noncomputable section

namespace Cert.PreRange

open Idealize.ShloMosaic Cert.Pre_finite_inputs

/-- The result of an "all entries" reduction has one index. -/
instance : Subsingleton S_.Idx := ⟨fun a b => funext fun d => d.elim0⟩

/-- A word in [0, n) as a signed number is below n as an unsigned number. -/
theorem toNat_lt_of_signed (w : BitVec 32) (n : Nat) (hn : n < 2 ^ 31)
    (h0 : IntOp.cmpi .sge w 0#32 = 1#1) (h1 : IntOp.cmpi .slt w (BitVec.ofNat 32 n) = 1#1) : w.toNat < n := by
  rw [IntOp.cmpi_sge, show (0#32 : BitVec 32).toInt = 0 from by decide] at h0
  rw [IntOp.cmpi_slt] at h1
  have hw : 2 * w.toNat < 2 ^ 32 := BitVec.toInt_pos_iff.1 h0
  rw [BitVec.toInt_eq_toNat_of_lt hw, StableHlo.Predicate.toInt_ofNat_small n hn] at h1
  omega

/-- The precondition decoded: every process id names a row of the 16-row table and every location id a row of the
    500,000-row table. -/
theorem ids_in_range {F : FTy → Type} [FloatOps F] (a0 : FVec F Cert.Pre_finite_inputs.S16x8 .f32)
    (a1 : FVec F Cert.Pre_finite_inputs.S500000x3 .f32) (a2 a3 : IVec Cert.Pre_finite_inputs.S8000000 32)
    (h : Cert.Pre_finite_inputs.fn (F := F) a0 a1 a2 a3 = fun _ => 1#1) :
    (∀ r, (a2 r).toNat < 16) ∧ (∀ r, (a3 r).toNat < 500000) := by
  have e := congrFun h ValueIdx.ix0
  dsimp only [fn, fn_part1] at e
  -- the conjunction, split from the outside in
  obtain ⟨e, hl1⟩ := IntOp.andi_eq_one.1 e
  obtain ⟨e, hl0⟩ := IntOp.andi_eq_one.1 e
  obtain ⟨e, hp1⟩ := IntOp.andi_eq_one.1 e
  obtain ⟨-, hp0⟩ := IntOp.andi_eq_one.1 e
  refine ⟨fun r => ?_, fun r => ?_⟩
  · have c0 := Host.reduce_andi_all _ _ _ _ _ hp0 r
    have c1 := Host.reduce_andi_all _ _ _ _ _ hp1 r
    exact toNat_lt_of_signed (a2 r) 16 (by norm_num) c0 c1
  · have c0 := Host.reduce_andi_all _ _ _ _ _ hl0 r
    have c1 := Host.reduce_andi_all _ _ _ _ _ hl1 r
    exact toNat_lt_of_signed (a3 r) 500000 (by norm_num) c0 c1

end Cert.PreRange

end
-- ==== Proof.RefLine.lean ====
/-
  The reference's @main as a line of operations.

  @main is a straight line of forty-seven array operations: the twenty-three of the first take (the selection
  of the moved-up index among them, which the program states as a function of its own), the twenty-three of
  the second take, and the concatenation of the two results.  Once the functions are unfolded at their calls
  the program is that line, so every fair execution terminates with each buffer at the line's fold over the
  launch contents.
-/
import proofs.«422656_j42262478192914_3_alg».proof.Proof.Gen.ReferenceIdeal
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo
open Facts₀ Facts

variable {F : FTy → Type} [FloatOps F]

/-- @main's forty-seven operations in order, the calls unfolded: the first take's over its own buffers with the
    16 × 8 table and the first index array as operands, the second take's likewise with the 500,000 × 3 table and
    the second index array, then the concatenation. -/
abbrev ops : List (HloOp τ sig (Elt F)) :=
  [
    TRef.nullary main_call0.c (constantI S_ 32 0#32),
    TRef.unary main_call0.c main_call0.v0 (broadcastInDim S8000000 ![] bcast_S_S8000000),
    TRef.binary (.of main_arg2 : TRef sig ⟨S8000000, .i32⟩) main_call0.v0 main_call0.v1 (cmpi .slt),
    TRef.nullary main_call0.c_0 (constantI S_ 32 16#32),
    TRef.unary main_call0.c_0 main_call0.v2 (broadcastInDim S8000000 ![] bcast_S_S8000000),
    TRef.binary (.of main_arg2 : TRef sig ⟨S8000000, .i32⟩) main_call0.v2 main_call0.v3 addi,
    TRef.ternary main_call0.v1 main_call0.v3 (.of main_arg2 : TRef sig ⟨S8000000, .i32⟩) main_call0.call0.v0 select,
    TRef.unary main_call0.call0.v0 main_call0.v5 (broadcastInDim S8000000x1 ![0] bcast_S8000000_S8000000x1_0),
    TRef.nullary main_call0.c_1 (constantI S1 32 15#32),
    TRef.nullary main_call0.c_2 (constantI S_ 32 0#32),
    TRef.unary main_call0.c_2 main_call0.v6 (broadcastInDim S8000000x1 ![] bcast_S_S8000000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S8000000x1 ![0, 1] bcast_S1x1_S8000000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S8000000x1_S8000000_d1 h_S_),
    TRef.binary (.of main_arg0 : TRef sig ⟨S16x8, .f32⟩) main_call0.v5 main_call0.v13 (fun x i => Host.gather gather_S16x8_S8000000x1_S8000000x8_1_0_n_n_0_1_18 x i),
    TRef.unary main_call0.v12 main_call0.v14 (broadcastInDim S8000000x8 ![0] bcast_S8000000_S8000000x8_0),
    TRef.nullary main_call0.cst (constant S_ .f32 0x7FC00000#32),
    TRef.unary main_call0.cst main_call0.v15 (broadcastInDim S8000000x8 ![] bcast_S_S8000000x8),
    TRef.ternary main_call0.v14 main_call0.v13 main_call0.v15 main_call0.v16 select,

    TRef.nullary main_call1.c (constantI S_ 32 0#32),
    TRef.unary main_call1.c main_call1.v0 (broadcastInDim S8000000 ![] bcast_S_S8000000),
    TRef.binary (.of main_arg3 : TRef sig ⟨S8000000, .i32⟩) main_call1.v0 main_call1.v1 (cmpi .slt),
    TRef.nullary main_call1.c_0 (constantI S_ 32 500000#32),
    TRef.unary main_call1.c_0 main_call1.v2 (broadcastInDim S8000000 ![] bcast_S_S8000000),
    TRef.binary (.of main_arg3 : TRef sig ⟨S8000000, .i32⟩) main_call1.v2 main_call1.v3 addi,
    TRef.ternary main_call1.v1 main_call1.v3 (.of main_arg3 : TRef sig ⟨S8000000, .i32⟩) main_call1.call0.v0 select,
    TRef.unary main_call1.call0.v0 main_call1.v5 (broadcastInDim S8000000x1 ![0] bcast_S8000000_S8000000x1_0),
    TRef.nullary main_call1.c_1 (constantI S1 32 499999#32),
    TRef.nullary main_call1.c_2 (constantI S_ 32 0#32),
    TRef.unary main_call1.c_2 main_call1.v6 (broadcastInDim S8000000x1 ![] bcast_S_S8000000x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S8000000x1 ![0, 1] bcast_S1x1_S8000000x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S8000000x1_S8000000_d1 h_S_),
    TRef.binary (.of main_arg1 : TRef sig ⟨S500000x3, .f32⟩) main_call1.v5 main_call1.v13 (fun x i => Host.gather gather_S500000x3_S8000000x1_S8000000x3_1_0_n_n_0_1_13 x i),
    TRef.unary main_call1.v12 main_call1.v14 (broadcastInDim S8000000x3 ![0] bcast_S8000000_S8000000x3_0),
    TRef.nullary main_call1.cst (constant S_ .f32 0x7FC00000#32),
    TRef.unary main_call1.cst main_call1.v15 (broadcastInDim S8000000x3 ![] bcast_S_S8000000x3),
    TRef.ternary main_call1.v14 main_call1.v13 main_call1.v15 main_call1.v16 select,
    binary main_v0 main_v1 main_v2 ((fun a b => concatenate S8000000x11 1 [⟨S8000000x8, a⟩, ⟨S8000000x3, b⟩] concatenates_S8000000x8_S8000000x3_S8000000x11_d1) : (⟨S8000000x8, .f32⟩ : BufTy).Contents (Elt F) → (⟨S8000000x3, .f32⟩ : BufTy).Contents (Elt F) → (⟨S8000000x11, .f32⟩ : BufTy).Contents (Elt F)) ]

/-- The first take's twenty-three operations. -/
abbrev opsProc : List (HloOp τ sig (Elt F)) :=
  [
    TRef.nullary main_call0.c (constantI S_ 32 0#32),
    TRef.unary main_call0.c main_call0.v0 (broadcastInDim S8000000 ![] bcast_S_S8000000),
    TRef.binary (.of main_arg2 : TRef sig ⟨S8000000, .i32⟩) main_call0.v0 main_call0.v1 (cmpi .slt),
    TRef.nullary main_call0.c_0 (constantI S_ 32 16#32),
    TRef.unary main_call0.c_0 main_call0.v2 (broadcastInDim S8000000 ![] bcast_S_S8000000),
    TRef.binary (.of main_arg2 : TRef sig ⟨S8000000, .i32⟩) main_call0.v2 main_call0.v3 addi,
    TRef.ternary main_call0.v1 main_call0.v3 (.of main_arg2 : TRef sig ⟨S8000000, .i32⟩) main_call0.call0.v0 select,
    TRef.unary main_call0.call0.v0 main_call0.v5 (broadcastInDim S8000000x1 ![0] bcast_S8000000_S8000000x1_0),
    TRef.nullary main_call0.c_1 (constantI S1 32 15#32),
    TRef.nullary main_call0.c_2 (constantI S_ 32 0#32),
    TRef.unary main_call0.c_2 main_call0.v6 (broadcastInDim S8000000x1 ![] bcast_S_S8000000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S8000000x1 ![0, 1] bcast_S1x1_S8000000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S8000000x1_S8000000_d1 h_S_),
    TRef.binary (.of main_arg0 : TRef sig ⟨S16x8, .f32⟩) main_call0.v5 main_call0.v13 (fun x i => Host.gather gather_S16x8_S8000000x1_S8000000x8_1_0_n_n_0_1_18 x i),
    TRef.unary main_call0.v12 main_call0.v14 (broadcastInDim S8000000x8 ![0] bcast_S8000000_S8000000x8_0),
    TRef.nullary main_call0.cst (constant S_ .f32 0x7FC00000#32),
    TRef.unary main_call0.cst main_call0.v15 (broadcastInDim S8000000x8 ![] bcast_S_S8000000x8),
    TRef.ternary main_call0.v14 main_call0.v13 main_call0.v15 main_call0.v16 select ]

/-- The second take's twenty-three operations. -/
abbrev opsLoc : List (HloOp τ sig (Elt F)) :=
  [
    TRef.nullary main_call1.c (constantI S_ 32 0#32),
    TRef.unary main_call1.c main_call1.v0 (broadcastInDim S8000000 ![] bcast_S_S8000000),
    TRef.binary (.of main_arg3 : TRef sig ⟨S8000000, .i32⟩) main_call1.v0 main_call1.v1 (cmpi .slt),
    TRef.nullary main_call1.c_0 (constantI S_ 32 500000#32),
    TRef.unary main_call1.c_0 main_call1.v2 (broadcastInDim S8000000 ![] bcast_S_S8000000),
    TRef.binary (.of main_arg3 : TRef sig ⟨S8000000, .i32⟩) main_call1.v2 main_call1.v3 addi,
    TRef.ternary main_call1.v1 main_call1.v3 (.of main_arg3 : TRef sig ⟨S8000000, .i32⟩) main_call1.call0.v0 select,
    TRef.unary main_call1.call0.v0 main_call1.v5 (broadcastInDim S8000000x1 ![0] bcast_S8000000_S8000000x1_0),
    TRef.nullary main_call1.c_1 (constantI S1 32 499999#32),
    TRef.nullary main_call1.c_2 (constantI S_ 32 0#32),
    TRef.unary main_call1.c_2 main_call1.v6 (broadcastInDim S8000000x1 ![] bcast_S_S8000000x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S8000000x1 ![0, 1] bcast_S1x1_S8000000x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S8000000x1_S8000000_d1 h_S_),
    TRef.binary (.of main_arg1 : TRef sig ⟨S500000x3, .f32⟩) main_call1.v5 main_call1.v13 (fun x i => Host.gather gather_S500000x3_S8000000x1_S8000000x3_1_0_n_n_0_1_13 x i),
    TRef.unary main_call1.v12 main_call1.v14 (broadcastInDim S8000000x3 ![0] bcast_S8000000_S8000000x3_0),
    TRef.nullary main_call1.cst (constant S_ .f32 0x7FC00000#32),
    TRef.unary main_call1.cst main_call1.v15 (broadcastInDim S8000000x3 ![] bcast_S_S8000000x3),
    TRef.ternary main_call1.v14 main_call1.v13 main_call1.v15 main_call1.v16 select ]

/-- The concatenation. -/
abbrev opCat : HloOp τ sig (Elt F) :=
  binary main_v0 main_v1 main_v2 ((fun a b => concatenate S8000000x11 1 [⟨S8000000x8, a⟩, ⟨S8000000x3, b⟩] concatenates_S8000000x8_S8000000x3_S8000000x11_d1) : (⟨S8000000x8, .f32⟩ : BufTy).Contents (Elt F) → (⟨S8000000x3, .f32⟩ : BufTy).Contents (Elt F) → (⟨S8000000x11, .f32⟩ : BufTy).Contents (Elt F))

/-- The line is the first take, then the second, then the concatenation. -/
theorem ops_split : (ops : List (HloOp τ sig (Elt F))) = opsProc ++ (opsLoc ++ [opCat]) := rfl

set_option maxRecDepth 2048 in
/-- @main is that line: with the three functions unfolded at their calls and sequencing re-associated, both
    sides are the same chain of steps. -/
theorem main_eq (c : Dev nD) : main (F := F) c = seq ops := by
  simp only [main, fn_take.body, fn_take_0.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore buffers only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub .., binary_bufs_sub ..⟩

/-- Every buffer ends at the line's fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- Two lines folded one after the other are their concatenation folded. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

end Cert.ReferenceIdeal.RefValue

end
-- ==== Proof.RefTerm.lean ====
/-
  The reference's result as one pure function of its four argument arrays.

  The reference takes rows of two tables and lays them side by side.  Each take is the same chain of
  array operations: an index below zero has the table's height added to it; the resulting index is
  tested for lying in [0, height - 1]; the rows are gathered at the resulting indices (the gather
  clamps a start index into the table); and a row whose index failed the test is replaced by a fill
  value.  The two takes differ only in the table's height and width.
-/
import proofs.«422656_j42262478192914_3_alg».proof.ReferenceIdeal

noncomputable section

namespace Cert.ReferenceIdeal.RefValue

open Idealize.ShloMosaic Cert.ReferenceIdeal

variable {F : FTy → Type} [FloatOps F] [Cert.ReferenceIdeal.Facts]
open Facts₀ Facts

/-- The start indices of the first take: an index below zero moved up by 16, as an 8,000,000 × 1 column. -/
def procStart (ids : IVec S8000000 32) : IVec S8000000x1 32 :=
  broadcastInDim S8000000x1 ![0] bcast_S8000000_S8000000x1_0
    (select (cmpi .slt ids (broadcastInDim S8000000 ![] bcast_S_S8000000 (constantI S_ 32 0#32)))
      (addi ids (broadcastInDim S8000000 ![] bcast_S_S8000000 (constantI S_ 32 16#32))) ids)

/-- Which rows of the first take have their start index inside [0, 15]. -/
def procInside (ids : IVec S8000000 32) : IVec S8000000 1 :=
  Host.reduce IntOp.andi
    (andi (cmpi .sge (procStart ids) (broadcastInDim S8000000x1 ![] bcast_S_S8000000x1 (constantI S_ 32 0#32)))
      (cmpi .sle (procStart ids) (broadcastInDim S8000000x1 ![0, 1] bcast_S1x1_S8000000x1_0_1
        (broadcastInDim S1x1 ![1] bcast_S1_S1x1_1 (constantI S1 32 15#32)))))
    (constantI S_ 1 1#1) reducesTo_S8000000x1_S8000000_d1 h_S_

/-- The first take: rows of the 16 × 8 table at the start indices, a row outside replaced by the fill value. -/
def takeProc (x : FVec F S16x8 .f32) (ids : IVec S8000000 32) : FVec F S8000000x8 .f32 :=
  select (broadcastInDim S8000000x8 ![0] bcast_S8000000_S8000000x8_0 (procInside ids))
    (Host.gather gather_S16x8_S8000000x1_S8000000x8_1_0_n_n_0_1_18 x (procStart ids))
    (broadcastInDim S8000000x8 ![] bcast_S_S8000000x8 (constant S_ .f32 0x7FC00000#32))

/-- The start indices of the second take: an index below zero moved up by 500,000, as a column. -/
def locStart (ids : IVec S8000000 32) : IVec S8000000x1 32 :=
  broadcastInDim S8000000x1 ![0] bcast_S8000000_S8000000x1_0
    (select (cmpi .slt ids (broadcastInDim S8000000 ![] bcast_S_S8000000 (constantI S_ 32 0#32)))
      (addi ids (broadcastInDim S8000000 ![] bcast_S_S8000000 (constantI S_ 32 500000#32))) ids)

/-- Which rows of the second take have their start index inside [0, 499999]. -/
def locInside (ids : IVec S8000000 32) : IVec S8000000 1 :=
  Host.reduce IntOp.andi
    (andi (cmpi .sge (locStart ids) (broadcastInDim S8000000x1 ![] bcast_S_S8000000x1 (constantI S_ 32 0#32)))
      (cmpi .sle (locStart ids) (broadcastInDim S8000000x1 ![0, 1] bcast_S1x1_S8000000x1_0_1
        (broadcastInDim S1x1 ![1] bcast_S1_S1x1_1 (constantI S1 32 499999#32)))))
    (constantI S_ 1 1#1) reducesTo_S8000000x1_S8000000_d1 h_S_

/-- The second take: rows of the 500,000 × 3 table at the start indices, a row outside replaced by the fill value. -/
def takeLoc (x : FVec F S500000x3 .f32) (ids : IVec S8000000 32) : FVec F S8000000x3 .f32 :=
  select (broadcastInDim S8000000x3 ![0] bcast_S8000000_S8000000x3_0 (locInside ids))
    (Host.gather gather_S500000x3_S8000000x1_S8000000x3_1_0_n_n_0_1_13 x (locStart ids))
    (broadcastInDim S8000000x3 ![] bcast_S_S8000000x3 (constant S_ .f32 0x7FC00000#32))

/-- The reference's result: the two takes side by side, eight columns then three. -/
def refTerm (x0 : FVec F S16x8 .f32) (x1 : FVec F S500000x3 .f32) (i2 i3 : IVec S8000000 32) : FVec F S8000000x11 .f32 :=
  concatenate S8000000x11 1 [⟨S8000000x8, takeProc x0 i2⟩, ⟨S8000000x3, takeLoc x1 i3⟩]
    concatenates_S8000000x8_S8000000x3_S8000000x11_d1

end Cert.ReferenceIdeal.RefValue

end
-- ==== Proof.RefRun.lean ====
/-
  The reference's run.

  Every fair execution of the reference's @main terminates with each buffer at the fold of its line of
  forty-seven operations over the launch contents.  Read at the result buffer the fold is the composition of
  the operations, which is the term refTerm of the four argument arrays; read at an argument buffer it is the
  argument, which no operation writes.  The fold is read in stretches, each over arbitrary contents before
  it: a take as its start indices, the test of them, and the gather with the selection; then the two takes
  and the concatenation.  A stretch's result is a short term of the buffers it reads, and a buffer read
  across a stretch is one the stretch does not write.  Nothing here looks inside an operation: the
  reduction, the gathers and the concatenation stay folded throughout.
-/
import proofs.«422656_j42262478192914_3_alg».proof.Proof.RefLine
import proofs.«422656_j42262478192914_3_alg».proof.Proof.RefTerm

noncomputable section

namespace Cert.ReferenceIdeal.RefValue

open Cert.ReferenceIdeal Idealize.ShloMosaic Idealize.ShloMosaic.TcCoe Idealize.SL.Sem Idealize.ShloMosaic.StableHlo
open Facts₀ Facts

variable {F : FTy → Type} [FloatOps F]

/-! ## The first take, in three stretches -/

/-- The first take's first eight operations: the start indices. -/
abbrev opsProcStart : List (HloOp τ sig (Elt F)) :=
  [ TRef.nullary main_call0.c (constantI S_ 32 0#32),
    TRef.unary main_call0.c main_call0.v0 (broadcastInDim S8000000 ![] bcast_S_S8000000),
    TRef.binary (.of main_arg2 : TRef sig ⟨S8000000, .i32⟩) main_call0.v0 main_call0.v1 (cmpi .slt),
    TRef.nullary main_call0.c_0 (constantI S_ 32 16#32),
    TRef.unary main_call0.c_0 main_call0.v2 (broadcastInDim S8000000 ![] bcast_S_S8000000),
    TRef.binary (.of main_arg2 : TRef sig ⟨S8000000, .i32⟩) main_call0.v2 main_call0.v3 addi,
    TRef.ternary main_call0.v1 main_call0.v3 (.of main_arg2 : TRef sig ⟨S8000000, .i32⟩) main_call0.call0.v0 select,
    TRef.unary main_call0.call0.v0 main_call0.v5 (broadcastInDim S8000000x1 ![0] bcast_S8000000_S8000000x1_0) ]

/-- Its next ten: the test of the start indices. -/
abbrev opsProcInside : List (HloOp τ sig (Elt F)) :=
  [ TRef.nullary main_call0.c_1 (constantI S1 32 15#32),
    TRef.nullary main_call0.c_2 (constantI S_ 32 0#32),
    TRef.unary main_call0.c_2 main_call0.v6 (broadcastInDim S8000000x1 ![] bcast_S_S8000000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S8000000x1 ![0, 1] bcast_S1x1_S8000000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S8000000x1_S8000000_d1 h_S_) ]

/-- Its last five: the gather, the fill value and the selection between them. -/
abbrev opsProcRows : List (HloOp τ sig (Elt F)) :=
  [ TRef.binary (.of main_arg0 : TRef sig ⟨S16x8, .f32⟩) main_call0.v5 main_call0.v13 (fun x i => Host.gather gather_S16x8_S8000000x1_S8000000x8_1_0_n_n_0_1_18 x i),
    TRef.unary main_call0.v12 main_call0.v14 (broadcastInDim S8000000x8 ![0] bcast_S8000000_S8000000x8_0),
    TRef.nullary main_call0.cst (constant S_ .f32 0x7FC00000#32),
    TRef.unary main_call0.cst main_call0.v15 (broadcastInDim S8000000x8 ![] bcast_S_S8000000x8),
    TRef.ternary main_call0.v14 main_call0.v13 main_call0.v15 main_call0.v16 select ]

theorem opsProc_split : (opsProc : List (HloOp τ sig (Elt F))) = opsProcStart ++ (opsProcInside ++ opsProcRows) := rfl

/-- The start indices are those of the index array before the stretch. -/
theorem procStart_eq (V : Valuation τ sig (Elt F)) :
    after opsProcStart V (main_call0_v5 : DevRef τ sig) = procStart (V (main_arg2 : DevRef τ sig)) := by
  after_results_simp
  rfl

attribute [local irreducible] Host.reduce in
/-- The test reads the start indices before the stretch. -/
theorem procInside_eq (V : Valuation τ sig (Elt F)) :
    after opsProcInside V (main_call0_v12 : DevRef τ sig)
      = Host.reduce IntOp.andi
          (andi (cmpi .sge (V (main_call0_v5 : DevRef τ sig)) (broadcastInDim S8000000x1 ![] bcast_S_S8000000x1 (constantI S_ 32 0#32)))
            (cmpi .sle (V (main_call0_v5 : DevRef τ sig)) (broadcastInDim S8000000x1 ![0, 1] bcast_S1x1_S8000000x1_0_1
              (broadcastInDim S1x1 ![1] bcast_S1_S1x1_1 (constantI S1 32 15#32)))))
          (constantI S_ 1 1#1) reducesTo_S8000000x1_S8000000_d1 h_S_ := by
  after_results_simp
  rfl

attribute [local irreducible] Host.gather in
/-- The selection reads the table, the start indices and the test's outcome before the stretch. -/
theorem procRows_eq (V : Valuation τ sig (Elt F)) :
    after opsProcRows V (main_v0 : DevRef τ sig)
      = select (broadcastInDim S8000000x8 ![0] bcast_S8000000_S8000000x8_0 (V (main_call0_v12 : DevRef τ sig)))
          (Host.gather gather_S16x8_S8000000x1_S8000000x8_1_0_n_n_0_1_18 (V (main_arg0 : DevRef τ sig)) (V (main_call0_v5 : DevRef τ sig)))
          (broadcastInDim S8000000x8 ![] bcast_S_S8000000x8 (constant S_ .f32 0x7FC00000#32)) := by
  after_results_simp
  rfl

/-- The first two stretches write neither the table nor, the second, the start indices. -/
theorem procStart_keeps_tbl (V : Valuation τ sig (Elt F)) : after opsProcStart V (main_arg0 : DevRef τ sig) = V (main_arg0 : DevRef τ sig) := by
  simp only [after_cons, after_nil]
  rfl
theorem procInside_keeps_tbl (V : Valuation τ sig (Elt F)) : after opsProcInside V (main_arg0 : DevRef τ sig) = V (main_arg0 : DevRef τ sig) := by
  simp only [after_cons, after_nil]
  rfl
theorem procInside_keeps_start (V : Valuation τ sig (Elt F)) : after opsProcInside V (main_call0_v5 : DevRef τ sig) = V (main_call0_v5 : DevRef τ sig) := by
  simp only [after_cons, after_nil]
  rfl

attribute [local irreducible] Host.reduce Host.gather in
/-- The first take's operations leave its result buffer at the first take of the table and index array before them. -/
theorem proc_eq (V : Valuation τ sig (Elt F)) :
    after opsProc V (main_v0 : DevRef τ sig) = takeProc (V (main_arg0 : DevRef τ sig)) (V (main_arg2 : DevRef τ sig)) := by
  rw [opsProc_split, after_append, after_append, procRows_eq, procInside_eq, procInside_keeps_tbl, procInside_keeps_start,
    procStart_eq, procStart_keeps_tbl]
  rfl

/-! ## The second take, in three stretches -/

/-- The second take's first eight operations: the start indices. -/
abbrev opsLocStart : List (HloOp τ sig (Elt F)) :=
  [ TRef.nullary main_call1.c (constantI S_ 32 0#32),
    TRef.unary main_call1.c main_call1.v0 (broadcastInDim S8000000 ![] bcast_S_S8000000),
    TRef.binary (.of main_arg3 : TRef sig ⟨S8000000, .i32⟩) main_call1.v0 main_call1.v1 (cmpi .slt),
    TRef.nullary main_call1.c_0 (constantI S_ 32 500000#32),
    TRef.unary main_call1.c_0 main_call1.v2 (broadcastInDim S8000000 ![] bcast_S_S8000000),
    TRef.binary (.of main_arg3 : TRef sig ⟨S8000000, .i32⟩) main_call1.v2 main_call1.v3 addi,
    TRef.ternary main_call1.v1 main_call1.v3 (.of main_arg3 : TRef sig ⟨S8000000, .i32⟩) main_call1.call0.v0 select,
    TRef.unary main_call1.call0.v0 main_call1.v5 (broadcastInDim S8000000x1 ![0] bcast_S8000000_S8000000x1_0) ]

/-- Its next ten: the test of the start indices. -/
abbrev opsLocInside : List (HloOp τ sig (Elt F)) :=
  [ TRef.nullary main_call1.c_1 (constantI S1 32 499999#32),
    TRef.nullary main_call1.c_2 (constantI S_ 32 0#32),
    TRef.unary main_call1.c_2 main_call1.v6 (broadcastInDim S8000000x1 ![] bcast_S_S8000000x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S8000000x1 ![0, 1] bcast_S1x1_S8000000x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S8000000x1_S8000000_d1 h_S_) ]

/-- Its last five: the gather, the fill value and the selection between them. -/
abbrev opsLocRows : List (HloOp τ sig (Elt F)) :=
  [ TRef.binary (.of main_arg1 : TRef sig ⟨S500000x3, .f32⟩) main_call1.v5 main_call1.v13 (fun x i => Host.gather gather_S500000x3_S8000000x1_S8000000x3_1_0_n_n_0_1_13 x i),
    TRef.unary main_call1.v12 main_call1.v14 (broadcastInDim S8000000x3 ![0] bcast_S8000000_S8000000x3_0),
    TRef.nullary main_call1.cst (constant S_ .f32 0x7FC00000#32),
    TRef.unary main_call1.cst main_call1.v15 (broadcastInDim S8000000x3 ![] bcast_S_S8000000x3),
    TRef.ternary main_call1.v14 main_call1.v13 main_call1.v15 main_call1.v16 select ]

theorem opsLoc_split : (opsLoc : List (HloOp τ sig (Elt F))) = opsLocStart ++ (opsLocInside ++ opsLocRows) := rfl

/-- The start indices are those of the index array before the stretch. -/
theorem locStart_eq (V : Valuation τ sig (Elt F)) :
    after opsLocStart V (main_call1_v5 : DevRef τ sig) = locStart (V (main_arg3 : DevRef τ sig)) := by
  after_results_simp
  rfl

attribute [local irreducible] Host.reduce in
/-- The test reads the start indices before the stretch. -/
theorem locInside_eq (V : Valuation τ sig (Elt F)) :
    after opsLocInside V (main_call1_v12 : DevRef τ sig)
      = Host.reduce IntOp.andi
          (andi (cmpi .sge (V (main_call1_v5 : DevRef τ sig)) (broadcastInDim S8000000x1 ![] bcast_S_S8000000x1 (constantI S_ 32 0#32)))
            (cmpi .sle (V (main_call1_v5 : DevRef τ sig)) (broadcastInDim S8000000x1 ![0, 1] bcast_S1x1_S8000000x1_0_1
              (broadcastInDim S1x1 ![1] bcast_S1_S1x1_1 (constantI S1 32 499999#32)))))
          (constantI S_ 1 1#1) reducesTo_S8000000x1_S8000000_d1 h_S_ := by
  after_results_simp
  rfl

attribute [local irreducible] Host.gather in
/-- The selection reads the table, the start indices and the test's outcome before the stretch. -/
theorem locRows_eq (V : Valuation τ sig (Elt F)) :
    after opsLocRows V (main_v1 : DevRef τ sig)
      = select (broadcastInDim S8000000x3 ![0] bcast_S8000000_S8000000x3_0 (V (main_call1_v12 : DevRef τ sig)))
          (Host.gather gather_S500000x3_S8000000x1_S8000000x3_1_0_n_n_0_1_13 (V (main_arg1 : DevRef τ sig)) (V (main_call1_v5 : DevRef τ sig)))
          (broadcastInDim S8000000x3 ![] bcast_S_S8000000x3 (constant S_ .f32 0x7FC00000#32)) := by
  after_results_simp
  rfl

/-- The first two stretches write neither the table nor, the second, the start indices. -/
theorem locStart_keeps_tbl (V : Valuation τ sig (Elt F)) : after opsLocStart V (main_arg1 : DevRef τ sig) = V (main_arg1 : DevRef τ sig) := by
  simp only [after_cons, after_nil]
  rfl
theorem locInside_keeps_tbl (V : Valuation τ sig (Elt F)) : after opsLocInside V (main_arg1 : DevRef τ sig) = V (main_arg1 : DevRef τ sig) := by
  simp only [after_cons, after_nil]
  rfl
theorem locInside_keeps_start (V : Valuation τ sig (Elt F)) : after opsLocInside V (main_call1_v5 : DevRef τ sig) = V (main_call1_v5 : DevRef τ sig) := by
  simp only [after_cons, after_nil]
  rfl

attribute [local irreducible] Host.reduce Host.gather in
/-- The second take's operations leave its result buffer at the second take of the table and index array before them. -/
theorem loc_eq (V : Valuation τ sig (Elt F)) :
    after opsLoc V (main_v1 : DevRef τ sig) = takeLoc (V (main_arg1 : DevRef τ sig)) (V (main_arg3 : DevRef τ sig)) := by
  rw [opsLoc_split, after_append, after_append, locRows_eq, locInside_eq, locInside_keeps_tbl, locInside_keeps_start,
    locStart_eq, locStart_keeps_tbl]
  rfl

/-! ## The whole line -/

attribute [local irreducible] concatenate in
/-- The concatenation leaves the result buffer at the two takes' buffers side by side. -/
theorem cat_eq (V : Valuation τ sig (Elt F)) :
    after [opCat] V (main_v2 : DevRef τ sig)
      = concatenate S8000000x11 1 [⟨S8000000x8, V (main_v0 : DevRef τ sig)⟩, ⟨S8000000x3, V (main_v1 : DevRef τ sig)⟩]
          concatenates_S8000000x8_S8000000x3_S8000000x11_d1 := by
  simp only [after_cons, after_nil]
  rfl

/-- The first take's operations write neither the second table nor the second index array; the second take's do not write the first take's result. -/
theorem proc_keeps_arg1 (V : Valuation τ sig (Elt F)) : after opsProc V (main_arg1 : DevRef τ sig) = V (main_arg1 : DevRef τ sig) := by
  simp only [after_cons, after_nil]
  rfl
theorem proc_keeps_arg3 (V : Valuation τ sig (Elt F)) : after opsProc V (main_arg3 : DevRef τ sig) = V (main_arg3 : DevRef τ sig) := by
  simp only [after_cons, after_nil]
  rfl
theorem loc_keeps_v0 (V : Valuation τ sig (Elt F)) : after opsLoc V (main_v0 : DevRef τ sig) = V (main_v0 : DevRef τ sig) := by
  simp only [after_cons, after_nil]
  rfl

attribute [local irreducible] concatenate in
/-- The fold at the result buffer is the reference's term of the four argument arrays. -/
theorem result_eq (V : Valuation τ sig (Elt F)) :
    after ops V (main_v2 : DevRef τ sig)
      = refTerm (V (main_arg0 : DevRef τ sig)) (V (main_arg1 : DevRef τ sig)) (V (main_arg2 : DevRef τ sig))
          (V (main_arg3 : DevRef τ sig)) := by
  have h0 : after opsLoc (after opsProc V) (main_v0 : DevRef τ sig) = takeProc (V (main_arg0 : DevRef τ sig)) (V (main_arg2 : DevRef τ sig)) :=
    (loc_keeps_v0 _).trans (proc_eq V)
  have h1 : after opsLoc (after opsProc V) (main_v1 : DevRef τ sig) = takeLoc (V (main_arg1 : DevRef τ sig)) (V (main_arg3 : DevRef τ sig)) := by
    rw [loc_eq, proc_keeps_arg1, proc_keeps_arg3]
  rw [ops_split, after_append, after_append, cat_eq, h0, h1]
  rfl

/-- No operation writes an argument buffer. -/
theorem arg0_eq (V : Valuation τ sig (Elt F)) : after ops V (main_arg0 : DevRef τ sig) = V (main_arg0 : DevRef τ sig) := by
  simp only [after_cons, after_nil]
  rfl
theorem arg1_eq (V : Valuation τ sig (Elt F)) : after ops V (main_arg1 : DevRef τ sig) = V (main_arg1 : DevRef τ sig) := by
  simp only [after_cons, after_nil]
  rfl
theorem arg2_eq (V : Valuation τ sig (Elt F)) : after ops V (main_arg2 : DevRef τ sig) = V (main_arg2 : DevRef τ sig) := by
  simp only [after_cons, after_nil]
  rfl
theorem arg3_eq (V : Valuation τ sig (Elt F)) : after ops V (main_arg3 : DevRef τ sig) = V (main_arg3 : DevRef τ sig) := by
  simp only [after_cons, after_nil]
  rfl

/-! ## The run -/

/-- On every device, for any float values, from any memory with zero counters: every weakly fair execution of
    @main terminates with the result at the reference's term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v2) = refTerm (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v2).trans (result_eq _),
      (h c main_arg0).trans (arg0_eq _), (h c main_arg1).trans (arg1_eq _),
      (h c main_arg2).trans (arg2_eq _), (h c main_arg3).trans (arg3_eq _)⟩)
    (run_fold m ρ)

end Cert.ReferenceIdeal.RefValue

end
-- ==== Proof.Spec.lean ====
/-
  The function both programs compute, stated without either program.

  Row r of the result (r below 8,000,000) has eleven entries: the first eight are row pid(r) of the
  16 × 8 table, the last three are row lid(r) of the 500,000 × 3 table.  An index word is read as a
  natural number and reduced modulo the table's height, so that the row is a row of the table for
  every word; for a word already below the height the reduction changes nothing.
-/
import Idealize.ShloMosaic.PureOps.Ideal
import Idealize.ShloMosaic.Lib.ValueIdx

noncomputable section

namespace Cert.Spec

open Idealize.ShloMosaic Idealize.ShloMosaic.ValueIdx

/-- The row of a table of height n that a 32-bit word names. -/
def rowOf (n : Nat) (hn : 0 < n) (w : BitVec 32) : Fin n := ⟨w.toNat % n, Nat.mod_lt _ hn⟩

/-- A word below the height names the row with its own number. -/
theorem rowOf_val {n : Nat} (hn : 0 < n) (w : BitVec 32) (h : w.toNat < n) : (rowOf n hn w).val = w.toNat :=
  Nat.mod_eq_of_lt h

/-- Entry (r, q) of the result: for q < 8 the table pp at (pid r, q), else the table ls at (lid r, q - 8). -/
def G (pp : FVec Ideal ⟨2, ![16, 8]⟩ .f32) (ls : FVec Ideal ⟨2, ![500000, 3]⟩ .f32)
    (pid lid : IVec ⟨1, ![8000000]⟩ 32) : FVec Ideal ⟨2, ![8000000, 11]⟩ .f32 := fun i =>
  if h : (i 1).val < 8 then
    pp (ix2 (rowOf 16 (by norm_num) (pid (ix1 (⟨(i 0).val, idx2_lt0 i⟩ : Fin 8000000)))) (⟨(i 1).val, h⟩ : Fin 8))
  else
    ls (ix2 (rowOf 500000 (by norm_num) (lid (ix1 (⟨(i 0).val, idx2_lt0 i⟩ : Fin 8000000))))
      (⟨(i 1).val - 8, by have := idx2_lt1 i; omega⟩ : Fin 3))

end Cert.Spec

end
-- ==== Proof.LibTakeRows.lean ====
/-
  A gather that takes ROWS of a rank-2 table, read at an index.

  What `table[ids, :]` of a table `[N, D]` at a column of start indices `[R, 1]` lowers to: a gather with offset axis
  `[1]`, collapsed slice axis `[0]`, start index map `[0]`, the index vector on axis 1 and slices of size `[1, D]`.
  Element `(r, q)` of the result is the table at row `ids[r, 0]` (the start index read as a signed integer and clamped
  into `[0, N - 1]`, as the gather clamps every start index so that the slice fits) and column `q`.
-/
import Idealize.ShloMosaic.PureOps.Ideal
import Idealize.ShloMosaic.Lib.ValueIdx

noncomputable section

namespace Cert.LibTakeRows

open Idealize.ShloMosaic Idealize.ShloMosaic.ValueIdx

variable {α : Type}

/-- The dimension numbers of a row take: operand `[N, D]`, start indices `[R, 1]`, result `[R, D]`. -/
abbrev takeRowsDims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- THE ROW TAKE READ AT `(r, q)`: the table at the row the start index `idx[r, 0]` names (read signed, clamped into
    `[0, N - 1]`) and at column `q`. -/
theorem gather_rows_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (y : (⟨2, ![R, D]⟩ : Shape).Idx) :
    Host.gather (takeRowsDims N D R wf) x idx y
      = x (ix2 ⟨min (idx (ix2 ⟨(y 0).val, idx2_lt0 y⟩ (0 : Fin 1))).toInt.toNat (N - 1), by omega⟩
          ⟨(y 1).val, idx2_lt1 y⟩) := by
  unfold Host.gather
  congr 1
  funext a
  refine Fin.ext ?_
  match a with
  | ⟨0, _⟩ =>
    -- the row axis: the clamped start index; no batching axis, and the axis is collapsed, so no offset
    show (takeRowsDims N D R wf).start y idx 0 + (takeRowsDims N D R wf).batchCoord y 0
      + (takeRowsDims N D R wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (takeRowsDims N D R wf).startIndexMap from List.mem_singleton.mpr rfl)]
    have hsi : (takeRowsDims N D R wf).siIdx y ⟨List.idxOf (0 : Fin 2) (takeRowsDims N D R wf).startIndexMap,
        List.idxOf_lt_length_iff.2 (List.mem_singleton.mpr rfl)⟩
        = ix2 ⟨(y 0).val, idx2_lt0 y⟩ (0 : Fin 1) := by
      funext b; refine Fin.ext ?_
      match b with
      | ⟨0, _⟩ => rfl
      | ⟨1, _⟩ => rfl
    rw [hsi]
    rfl
  | ⟨1, _⟩ =>
    -- the column axis: not in the start index map, not a batching axis; the offset is the result's column
    show (takeRowsDims N D R wf).start y idx 1 + (takeRowsDims N D R wf).batchCoord y 1
      + (takeRowsDims N D R wf).offCoord y 1 = (y 1).val
    have hk : (1 : Fin 2) ∈ (takeRowsDims N D R wf).sKept :=
      (GatherDims.mem_sKept _ _).mpr ⟨show (1 : Fin 2) ∉ [(0 : Fin 2)] by decide, List.not_mem_nil⟩
    rw [GatherDims.batchCoord_eq_zero _ _ _ List.not_mem_nil]
    unfold GatherDims.start GatherDims.offCoord
    rw [dif_neg (show (1 : Fin 2) ∉ [(0 : Fin 2)] by decide), dif_pos hk]
    simp only [Nat.add_zero, Nat.zero_add]
    rfl

/-- The same for any record whose fields are those of a row take (each hypothesis holds by `rfl` for a record defined
    with exactly these fields). -/
theorem gather_rows_apply_of {N D R w : Nat} (hN : 0 < N) (d : GatherDims ⟨2, ![N, D]⟩ ⟨2, ![R, 1]⟩ ⟨2, ![R, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : IVec ⟨2, ![R, 1]⟩ w) (y : (⟨2, ![R, D]⟩ : Shape).Idx) :
    Host.gather d x idx y
      = x (ix2 ⟨min (idx (ix2 ⟨(y 0).val, idx2_lt0 y⟩ (0 : Fin 1))).toInt.toNat (N - 1), by omega⟩
          ⟨(y 1).val, idx2_lt1 y⟩) := by
  obtain ⟨od, cd, ob, sb, sm, iv, ss, wf⟩ := d
  simp only at h1 h2 h3 h4 h5 h6 h7
  subst h1 h2 h3 h4 h5 h6 h7
  exact gather_rows_apply hN wf x idx y

end Cert.LibTakeRows

end
-- ==== Proof.RefRead.lean ====
/-
  The reference's result, read at an index, is the target function.

  Each of the reference's two takes moves an index below zero up by the table's height, tests the result for lying
  inside the table, gathers rows at the (clamped) indices and replaces a row that failed the test by a fill value.  For
  an index word whose value is below the table's height nothing of this acts: the word is not negative, so it is not
  moved; it lies inside, so the test's bit is 1 and the gathered row is kept; and the clamp leaves it alone.  What is
  left is the table's row at the index, and the two takes side by side are the target function.
-/
import proofs.«422656_j42262478192914_3_alg».proof.Proof.RefTerm
import proofs.«422656_j42262478192914_3_alg».proof.Proof.Spec
import proofs.«422656_j42262478192914_3_alg».proof.Proof.LibTakeRows
import proofs.«422656_j42262478192914_3_alg».proof.Proof.Gen.ReferenceIdeal
import Idealize.ShloMosaic.Lib.StableHlo.Predicate
import Idealize.ShloMosaic.Lib.Pipeline.Value
import Idealize.ShloMosaic.PureOps.Reduce

noncomputable section

namespace Cert.ReferenceIdeal.RefValue

open Idealize.ShloMosaic Idealize.ShloMosaic.ValueIdx Cert.ReferenceIdeal
open Idealize.ShloMosaic.StableHlo.Predicate
open Facts₀ Facts

/-! ## Words: an index below the table's height -/

/-- A word below 2³¹ is not negative, so "add the height if negative" leaves it alone. -/
theorem normalise_eq (w n : BitVec 32) (hw : w.toNat < 2 ^ 31) :
    Scalar.select (IntOp.cmpi .slt w 0#32) (IntOp.addi w n) w = w := by
  have hc : ¬ IntOp.cmpi .slt w 0#32 = 1#1 := by
    rw [slt_iff_toNat hw (by decide)]
    exact Nat.not_lt_zero _
  exact if_neg hc

/-- A word whose value is at most that of `hi` (both below 2³¹) passes the test "at least 0 and at most `hi`". -/
theorem inside_eq_one (w hi : BitVec 32) (hhi : hi.toNat < 2 ^ 31) (hw : w.toNat ≤ hi.toNat) :
    IntOp.andi (IntOp.cmpi .sge w 0#32) (IntOp.cmpi .sle w hi) = 1#1 := by
  have e1 : IntOp.cmpi .sge w 0#32 = 1#1 := (sge_iff_toNat (by omega) (by decide)).mpr (Nat.zero_le _)
  have e2 : IntOp.cmpi .sle w hi = 1#1 := (sle_iff_toNat (by omega) hhi).mpr hw
  rw [e1, e2]
  rfl

/-- The gather's clamp into `[0, n - 1]` of a word below the height `n` is the row the word names. -/
theorem clamp_eq_rowOf (w : BitVec 32) (n : Nat) (hn : 0 < n) (hn' : n ≤ 2 ^ 31) (hw : w.toNat < n) :
    min w.toInt.toNat (n - 1) = (Cert.Spec.rowOf n hn w).val := by
  rw [Cert.Spec.rowOf_val hn w hw, toInt_eq_toNat_of_lt (by omega), Int.toNat_natCast]
  exact Nat.min_eq_left (by omega)

/-! ## A reduction by `and` over the one-entry axis of a column -/

/-- A fold over the one-element index set `Fin m`, `m = 1`, is the operation applied once. -/
theorem fold_univ_fin_one {β : Type} (op : β → β → β) [Std.Commutative op] [Std.Associative op] {m : Nat} (hm : m = 1)
    (b : β) (f : Fin m → β) : (Finset.univ : Finset (Fin m)).fold op b f = op (f ⟨0, by omega⟩) b := by
  subst hm
  rw [Finset.univ_unique, Finset.fold_singleton]
  rfl

/-- Reducing an `n × 1` column of bits by `and` over its second axis, from the bit 1, gives at row `r` the column's
    entry `(r, 0)`. -/
theorem reduce_andi_col1 {n : Nat} (x : IVec ⟨2, ![n, 1]⟩ 1) (init : IVec ⟨0, ![]⟩ 1)
    (h' : (⟨2, ![n, 1]⟩ : Shape).ReducesTo [1] ⟨1, ![n]⟩) (h : (⟨2, ![n, 1]⟩ : Shape).Reduces [1] ⟨1, ![n]⟩)
    (hu : 0 < (⟨0, ![]⟩ : Shape).numel) (hinit : init (Shape.Idx.first hu) = 1#1) (r : Fin n) :
    Host.reduce IntOp.andi x init h' hu (ix1 r) = x (ix2 r (0 : Fin 1)) := by
  rw [Host.reduce_eq_fold_single IntOp.andi x init h' h hu (ix1 r), hinit]
  refine (fold_univ_fin_one IntOp.andi (m := (⟨2, ![n, 1]⟩ : Shape).size 1) rfl _ _).trans ?_
  -- the one source index over row `r` is `(r, 0)`
  have hl : ∀ k : Fin ((⟨2, ![n, 1]⟩ : Shape).size 1), h.lift (ix1 r) k = ix2 r (0 : Fin 1) := by
    intro k
    funext c
    match c with
    | ⟨0, _⟩ => rfl
    | ⟨1, _⟩ =>
      have hk : k.val < 1 := k.isLt
      exact Fin.ext (show k.val = 0 by omega)
  rw [Function.comp_apply, hl]
  show x (ix2 r (0 : Fin 1)) &&& 1#1 = _
  generalize x (ix2 r (0 : Fin 1)) = b
  rcases BitVec.eq_zero_or_eq_one b with rfl | rfl <;> rfl

/-! ## The first take -/

/-- The first take's start index at row `r`, as the chain of word operations that makes it. -/
theorem procStart_apply (ids : IVec S8000000 32) (r : Fin 8000000) :
    procStart ids (ix2 r (0 : Fin 1))
      = Scalar.select (IntOp.cmpi .slt (ids (ix1 r)) 0#32) (IntOp.addi (ids (ix1 r)) 16#32) (ids (ix1 r)) := by
  unfold procStart
  exact broadcastInDim_apply _ _ _ (ix2 r (0 : Fin 1)) (ix1 r) (fun a => match a with | ⟨0, _⟩ => rfl)

/-- For an index below 16 the start index is the index. -/
theorem procStart_val (ids : IVec S8000000 32) (r : Fin 8000000) (h : (ids (ix1 r)).toNat < 16) :
    procStart ids (ix2 r (0 : Fin 1)) = ids (ix1 r) := by
  rw [procStart_apply, normalise_eq _ _ (by omega)]

/-- For an index below 16 the row passes the test. -/
theorem procInside_eq_one (ids : IVec S8000000 32) (r : Fin 8000000) (h : (ids (ix1 r)).toNat < 16) :
    procInside ids (ix1 r) = 1#1 := by
  unfold procInside
  rw [reduce_andi_col1 _ _ reducesTo_S8000000x1_S8000000_d1 (by decide) h_S_ rfl r]
  show IntOp.andi (IntOp.cmpi .sge (procStart ids (ix2 r (0 : Fin 1))) 0#32)
    (IntOp.cmpi .sle (procStart ids (ix2 r (0 : Fin 1))) 15#32) = 1#1
  rw [procStart_val ids r h]
  exact inside_eq_one _ _ (by decide) (by show _ ≤ 15; omega)

/-- THE FIRST TAKE AT `(r, q)`: the 16 × 8 table at the row the index names and at column `q`. -/
theorem takeProc_apply (x0 : FVec Ideal S16x8 .f32) (i2 : IVec S8000000 32) (h2 : ∀ r, (i2 r).toNat < 16)
    (r : Fin 8000000) (q : Fin 8) :
    takeProc (F := Ideal) x0 i2 (ix2 r q) = x0 (ix2 (Cert.Spec.rowOf 16 (by norm_num) (i2 (ix1 r))) q) := by
  unfold takeProc
  rw [select_apply]
  have hb : broadcastInDim S8000000x8 ![0] bcast_S8000000_S8000000x8_0 (procInside i2) (ix2 r q) = 1#1 := by
    rw [broadcastInDim_apply _ _ _ (ix2 r q) (ix1 r) (fun a => match a with | ⟨0, _⟩ => rfl)]
    exact procInside_eq_one i2 r (h2 _)
  rw [hb, select_one,
    Cert.LibTakeRows.gather_rows_apply_of (by norm_num) _ rfl rfl rfl rfl rfl rfl rfl]
  refine congrArg x0 (funext fun d => ?_)
  match d with
  | ⟨0, _⟩ =>
    exact Fin.ext (show min (procStart i2 (ix2 r (0 : Fin 1))).toInt.toNat (16 - 1) = _ by
      rw [procStart_val i2 r (h2 _)]
      exact clamp_eq_rowOf _ 16 _ (by norm_num) (h2 _))
  | ⟨1, _⟩ => rfl

/-! ## The second take -/

/-- The second take's start index at row `r`, as the chain of word operations that makes it. -/
theorem locStart_apply (ids : IVec S8000000 32) (r : Fin 8000000) :
    locStart ids (ix2 r (0 : Fin 1))
      = Scalar.select (IntOp.cmpi .slt (ids (ix1 r)) 0#32) (IntOp.addi (ids (ix1 r)) 500000#32) (ids (ix1 r)) := by
  unfold locStart
  exact broadcastInDim_apply _ _ _ (ix2 r (0 : Fin 1)) (ix1 r) (fun a => match a with | ⟨0, _⟩ => rfl)

/-- For an index below 500,000 the start index is the index. -/
theorem locStart_val (ids : IVec S8000000 32) (r : Fin 8000000) (h : (ids (ix1 r)).toNat < 500000) :
    locStart ids (ix2 r (0 : Fin 1)) = ids (ix1 r) := by
  rw [locStart_apply, normalise_eq _ _ (by omega)]

/-- For an index below 500,000 the row passes the test. -/
theorem locInside_eq_one (ids : IVec S8000000 32) (r : Fin 8000000) (h : (ids (ix1 r)).toNat < 500000) :
    locInside ids (ix1 r) = 1#1 := by
  unfold locInside
  rw [reduce_andi_col1 _ _ reducesTo_S8000000x1_S8000000_d1 (by decide) h_S_ rfl r]
  show IntOp.andi (IntOp.cmpi .sge (locStart ids (ix2 r (0 : Fin 1))) 0#32)
    (IntOp.cmpi .sle (locStart ids (ix2 r (0 : Fin 1))) 499999#32) = 1#1
  rw [locStart_val ids r h]
  exact inside_eq_one _ _ (by decide) (by show _ ≤ 499999; omega)

/-- THE SECOND TAKE AT `(r, q)`: the 500,000 × 3 table at the row the index names and at column `q`. -/
theorem takeLoc_apply (x1 : FVec Ideal S500000x3 .f32) (i3 : IVec S8000000 32) (h3 : ∀ r, (i3 r).toNat < 500000)
    (r : Fin 8000000) (q : Fin 3) :
    takeLoc (F := Ideal) x1 i3 (ix2 r q) = x1 (ix2 (Cert.Spec.rowOf 500000 (by norm_num) (i3 (ix1 r))) q) := by
  unfold takeLoc
  rw [select_apply]
  have hb : broadcastInDim S8000000x3 ![0] bcast_S8000000_S8000000x3_0 (locInside i3) (ix2 r q) = 1#1 := by
    rw [broadcastInDim_apply _ _ _ (ix2 r q) (ix1 r) (fun a => match a with | ⟨0, _⟩ => rfl)]
    exact locInside_eq_one i3 r (h3 _)
  rw [hb, select_one,
    Cert.LibTakeRows.gather_rows_apply_of (by norm_num) _ rfl rfl rfl rfl rfl rfl rfl]
  refine congrArg x1 (funext fun d => ?_)
  match d with
  | ⟨0, _⟩ =>
    exact Fin.ext (show min (locStart i3 (ix2 r (0 : Fin 1))).toInt.toNat (500000 - 1) = _ by
      rw [locStart_val i3 r (h3 _)]
      exact clamp_eq_rowOf _ 500000 _ (by norm_num) (h3 _))
  | ⟨1, _⟩ => rfl

/-! ## The two takes side by side -/

/-- THE REFERENCE'S RESULT IS THE TARGET FUNCTION, for index words below the tables' heights. -/
theorem refTerm_eq_G (x0 : FVec Ideal S16x8 .f32) (x1 : FVec Ideal S500000x3 .f32) (i2 i3 : IVec S8000000 32)
    (h2 : ∀ r, (i2 r).toNat < 16) (h3 : ∀ r, (i3 r).toNat < 500000) :
    refTerm (F := Ideal) x0 x1 i2 i3 = Cert.Spec.G x0 x1 i2 i3 := by
  funext j
  obtain ⟨r, q, rfl⟩ : ∃ (r : Fin 8000000) (q : Fin 11), j = ix2 r q := ⟨j 0, j 1, eq_ix2 j⟩
  unfold refTerm
  by_cases hq : q.val < 8
  · -- a column among the first eight: the first take's
    rw [concatenate_pair_apply_left (t := S8000000x11) (s₁ := S8000000x8) (s₂ := S8000000x3) 1 (takeProc x0 i2)
      (takeLoc x1 i3) concatenates_S8000000x8_S8000000x3_S8000000x11_d1 (ix2 r q) rfl (ix2 r (⟨q.val, hq⟩ : Fin 8))
      (fun b => match b with | ⟨0, _⟩ => rfl | ⟨1, _⟩ => rfl)]
    rw [takeProc_apply x0 i2 h2 r ⟨q.val, hq⟩]
    unfold Cert.Spec.G
    split
    · rfl
    · next hn => exact absurd hq hn
  · -- a column among the last three: the second take's, eight columns further left
    have hq3 : q.val - 8 < 3 := by have := q.isLt; omega
    rw [concatenate_pair_apply_right (t := S8000000x11) (s₁ := S8000000x8) (s₂ := S8000000x3) 1 (takeProc x0 i2)
      (takeLoc x1 i3) concatenates_S8000000x8_S8000000x3_S8000000x11_d1 (ix2 r q) rfl rfl
      (ix2 r (⟨q.val - 8, hq3⟩ : Fin 3))
      (fun b => match b with | ⟨0, _⟩ => fun _ => rfl | ⟨1, _⟩ => fun hb => absurd rfl hb)
      (show q.val - 8 + 8 = q.val by omega)]
    rw [takeLoc_apply x1 i3 h3 r ⟨q.val - 8, hq3⟩]
    unfold Cert.Spec.G
    split
    · next hp => exact absurd hp hq
    · rfl

end Cert.ReferenceIdeal.RefValue

end
-- ==== Proof.LibPlainDot.lean ====
/-
  The plain matrix product read at an index.

  For the contraction pattern "rows × inner" by "inner × columns" (left axis 1 against right axis 0, no batch
  axis), the product into a zero accumulator, and the host's product of the same operands, are at output
  index (p, q) the sum over the inner coordinate k of l(p, k) · r(k, q). The contraction's own index type
  has one axis of extent K; the sum is re-indexed through the bijection of that type with `Fin K`.
  Nothing here depends on a program: the three extents are variables.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat}

/-- The plain pattern contracts exactly one axis. -/
theorem contr_rank : (DotDims.plain M K N).contr.rank = 1 := rfl

/-- That axis has the inner extent. -/
theorem contr_size : (DotDims.plain M K N).contr.size ⟨0, by rw [contr_rank]; exact Nat.one_pos⟩ = K := rfl

/-- The bijection of the contraction's index type with the inner coordinate. -/
abbrev inner : (DotDims.plain M K N).contr.Idx ≃ Fin K :=
  contrEquiv1 (DotDims.plain M K N) K contr_rank contr_size

/-- At output index j and inner coordinate k the left operand is read at (j₀, k). -/
theorem lhsIdx_inner (j : (⟨2, ![M, N]⟩ : Shape).Idx) (k : Fin K) :
    (DotDims.plain M K N).lhsIdx j (inner.symm k) = ix2 (j 0) k := by
  funext a
  match a with
  | ⟨0, _⟩ => rfl
  | ⟨1, _⟩ =>
    apply Fin.ext
    exact ((DotDims.plain M K N).lhsIdx_val_of_single (cl := 1) rfl j (inner.symm k)).trans
      (contrEquiv1_symm_val (DotDims.plain M K N) K contr_rank contr_size k)

/-- At output index j and inner coordinate k the right operand is read at (k, j₁). -/
theorem rhsIdx_inner (j : (⟨2, ![M, N]⟩ : Shape).Idx) (k : Fin K) :
    (DotDims.plain M K N).rhsIdx j (inner.symm k) = ix2 k (j 1) := by
  funext a
  match a with
  | ⟨0, _⟩ =>
    apply Fin.ext
    exact ((DotDims.plain M K N).rhsIdx_val_of_single (cr := 0) rfl j (inner.symm k)).trans
      (contrEquiv1_symm_val (DotDims.plain M K N) K contr_rank contr_size k)
  | ⟨1, _⟩ => rfl

/-- The contraction's sum, over the inner coordinate. -/
theorem sum_inner (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (inner (M := M) (K := K) (N := N)).symm]
  exact Finset.sum_congr rfl fun k _ =>
    congrArg₂ (· * ·) (congrArg l (lhsIdx_inner j k)) (congrArg r (rhsIdx_inner j k))

/-- A kernel's product into the zero accumulator, at an index. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_inner l r j)

/-- The host's product, at an index: the same sum. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_inner l r j)

end Cert.LibPlainDot

end
-- ==== Proof.KerPayload.lean ====
/-
  What the kernel body stores, entry by entry.

  At a grid point the body holds a block of 4096 index words, the whole 16 × 8 table and a 4096 × 3
  block of already gathered rows.  It clamps each index word, as a signed number, into [0, 15];
  builds the 4096 × 16 matrix whose row p has a one in column (clamped word p) and zeros elsewhere;
  multiplies that matrix by the table; and stores the product and the gathered block side by side.
  Over the extended reals a row of the product is a sum of sixteen terms of which fifteen are
  0 · (a table entry) = 0 and one is 1 · (a table entry): the product's row p IS row (clamped word p)
  of the table, with no condition on the table's entries.
-/
import proofs.«422656_j42262478192914_3_alg».proof.Proof.Gen.KernelIdeal.Skeleton
import proofs.«422656_j42262478192914_3_alg».proof.Proof.LibPlainDot
import Idealize.ShloMosaic.Lib.Pipeline.Value
import Idealize.ShloMosaic.Lib.ValueIdx
import Idealize.ShloMosaic.PureOps.Ideal.Laws

noncomputable section

open scoped BigOperators

namespace Cert.KernelIdeal.KerValue

open Idealize.ShloMosaic Idealize.ShloMosaic.ValueIdx Cert.KernelIdeal Cert.KernelIdeal.Gen

/-! ## Words -/

/-- A word clamped, as a signed number, into [0, 15]. -/
def clamp15 (w : BitVec 32) : BitVec 32 := IntOp.minsi 15#32 (IntOp.maxsi 0#32 w)

/-- The clamped word, read as a natural number, is below 16. -/
theorem clamp15_lt (w : BitVec 32) : (clamp15 w).toNat < 16 := by
  have hw := BitVec.toInt_eq_toNat_cond w
  have h0 : (0#32 : BitVec 32).toInt = 0 := by decide
  have h15 : (15#32 : BitVec 32).toInt = 15 := by decide
  have hn0 : (0#32 : BitVec 32).toNat = 0 := by decide
  have hn15 : (15#32 : BitVec 32).toNat = 15 := by decide
  have hlt := w.isLt
  unfold clamp15 IntOp.minsi IntOp.maxsi
  simp only [BitVec.slt, h0, h15, decide_eq_true_eq]
  split_ifs with h1 h2 h3 <;> first | omega | (simp only [hn0, hn15]; omega)

/-- A word that is already below 16 is its own clamp. -/
theorem clamp15_of_lt (w : BitVec 32) (h : w.toNat < 16) : clamp15 w = w := by
  have hw := BitVec.toInt_eq_toNat_cond w
  have h0 : (0#32 : BitVec 32).toInt = 0 := by decide
  have h15 : (15#32 : BitVec 32).toInt = 15 := by decide
  unfold clamp15 IntOp.minsi IntOp.maxsi
  simp only [BitVec.slt, h0, h15, decide_eq_true_eq]
  split_ifs with h1 h2 h3
  · exfalso; omega
  · exfalso; omega
  · exfalso; omega
  · rfl
  all_goals (apply BitVec.eq_of_toNat_eq; simp; omega)

/-! ## One row of the one-hot product -/

/-- The sum over the sixteen columns k of (1 if the word is k, else 0) · f k is f at the word. -/
theorem onehot_sum (w : BitVec 32) (hw : w.toNat < 16) (f : Fin 16 → EReal) :
    ∑ k : Fin 16, (FloatOps.sitofp (F := Ideal) .f32 ((IntOp.cmpi .eq w (BitVec.ofNat 32 k.val)).setWidth 32) : EReal) * f k
      = f ⟨w.toNat, hw⟩ := by
  rw [Finset.sum_eq_single (⟨w.toNat, hw⟩ : Fin 16)]
  · have e : IntOp.cmpi .eq w (BitVec.ofNat 32 w.toNat) = 1#1 := by
      rw [BitVec.ofNat_toNat, BitVec.setWidth_eq]; simp [IntOp.cmpi]
    rw [e]
    show ((((1#1 : BitVec 1).setWidth 32).toInt : ℝ) : EReal) * f _ = f _
    have e1 : ((1#1 : BitVec 1).setWidth 32).toInt = 1 := by decide
    rw [e1]; simp
  · intro k _ hk
    have hne : w ≠ BitVec.ofNat 32 k.val := by
      intro h
      apply hk
      apply Fin.ext
      have := congrArg BitVec.toNat h
      simp only [BitVec.toNat_ofNat] at this
      have hk16 := k.isLt
      show k.val = w.toNat
      omega
    have e : IntOp.cmpi .eq w (BitVec.ofNat 32 k.val) = 0#1 := by
      have hb : (w == BitVec.ofNat 32 k.val) = false := beq_eq_false_iff_ne.mpr hne
      show BitVec.ofBool (w == BitVec.ofNat 32 k.val) = 0#1
      rw [hb]; rfl
    rw [e]
    show ((((0#1 : BitVec 1).setWidth 32).toInt : ℝ) : EReal) * f _ = 0
    have e0 : ((0#1 : BitVec 1).setWidth 32).toInt = 0 := by decide
    rw [e0]; simp
  · intro h; exact absurd (Finset.mem_univ _) h

/-! ## The stored block at an entry -/

/-- The contraction pattern of the body's product is the plain rows × inner by inner × columns one. -/
theorem dot_plain : dot_S4096x16_S16x8_S4096x8_1_0_0_1_n_n = DotDims.plain 4096 16 8 := rfl

/-- Entry (p, k) of the one-hot matrix: 1 if the clamped word p is k, else 0. -/
theorem onehot_apply (v0 : Vec Ideal S4096 .i32) (p : Fin 4096) (k : Fin 16) :
    (sitofp .f32 (extui 32 (cmpi .eq
        (broadcastTo S4096x16 (shapeCast S4096x1 (minsi (broadcast S4096 15#32) (maxsi (broadcast S4096 0#32) (shapeCast S4096 v0 shapeCasts_S4096_S4096))) shapeCasts_S4096_S4096x1) broadcasts_S4096x1_S4096x16)
        (iota .tc S4096x16 32 [1] iota_S4096x16_d1_w32)) natLt_1_32) : FVec Ideal S4096x16 .f32) (ix2 p k)
      = (FloatOps.sitofp (F := Ideal) .f32 ((IntOp.cmpi .eq (clamp15 (v0 (ix1 p))) (BitVec.ofNat 32 k.val)).setWidth 32) : EReal) := by
  rw [sitofp_apply, extui_apply]
  show FloatOps.sitofp (F := Ideal) .f32 ((IntOp.cmpi .eq _ _).setWidth 32) = _
  rw [iota_single_apply]
  rw [broadcastTo_apply _ broadcasts_S4096x1_S4096x16 (ix2 p k) (ix2 p (0 : Fin 1)) (by
    intro a; match a with | ⟨0, _⟩ => rfl | ⟨1, _⟩ => rfl)]
  rw [shapeCast_apply _ shapeCasts_S4096_S4096x1 (ix2 p (0 : Fin 1)) (ix1 p) (by
    rw [Shape.rowMajor_val_one, Shape.rowMajor_val_two]; show p.val = p.val * 1 + 0; omega)]
  rw [shapeCast_self]
  rfl

/-- Entry (p, q) with q < 8 of what the body stores: the table at (clamped word p, q). -/
theorem pay_left (v0 : Vec Ideal S4096 .i32) (v12 : Vec Ideal S16x8 .f32) (v14 : Vec Ideal S4096x3 .f32)
    (p : Fin 4096) (q : Fin 8) :
    k0_pay1 v0 v12 v14 (ix2 p (⟨q.val, by omega⟩ : Fin 11))
      = v12 (ix2 (⟨(clamp15 (v0 (ix1 p))).toNat, clamp15_lt _⟩ : Fin 16) q) := by
  unfold k0_pay1
  refine (concatenate_pair_apply_left (t := S4096x11) (s₁ := S4096x8) (s₂ := S4096x3) (1 : Fin 2) _ _
    concatenates_S4096x8_S4096x3_S4096x11_d1
    (ix2 p (⟨q.val, by omega⟩ : Fin 11)) rfl (ix2 p q) (fun b => by
      match b with | ⟨0, _⟩ => rfl | ⟨1, _⟩ => rfl)).trans ?_
  rw [dot_plain]
  refine (Cert.LibPlainDot.matmul_zero_apply (M := 4096) (K := 16) (N := 8) (some .fp32) _ v12 (ix2 p q)).trans ?_
  refine (Finset.sum_congr rfl fun k _ => ?_).trans
    (onehot_sum (clamp15 (v0 (ix1 p))) (clamp15_lt _) (fun k => v12 (ix2 k q)))
  exact congrArg (· * v12 (ix2 k q)) (onehot_apply v0 p k)

/-- Entry (p, 8 + q) with q < 3 of what the body stores: the gathered block at (p, q). -/
theorem pay_right (v0 : Vec Ideal S4096 .i32) (v12 : Vec Ideal S16x8 .f32) (v14 : Vec Ideal S4096x3 .f32)
    (p : Fin 4096) (q : Fin 3) :
    k0_pay1 v0 v12 v14 (ix2 p (⟨q.val + 8, by omega⟩ : Fin 11)) = v14 (ix2 p q) := by
  unfold k0_pay1
  refine (concatenate_pair_apply_right (t := S4096x11) (s₁ := S4096x8) (s₂ := S4096x3) (1 : Fin 2) _ _
    concatenates_S4096x8_S4096x3_S4096x11_d1
    (ix2 p (⟨q.val + 8, by omega⟩ : Fin 11)) rfl rfl (ix2 p q) (fun b hb => by
      match b with | ⟨0, _⟩ => rfl | ⟨1, _⟩ => exact absurd rfl hb) rfl).trans ?_
  rw [shapeCast_self]

end Cert.KernelIdeal.KerValue

end
-- ==== Proof.KerBlocks.lean ====
/-
  From the blocks the grid points write back to the whole padded array.

  The grid has 1954 points.  Point t reads index words t·4096 … t·4096 + 4095 of the padded index
  array, the same rows of the padded 8,003,584 × 3 array of gathered rows, and the whole 16 × 8
  table, and writes rows t·4096 … t·4096 + 4095 of the 8,003,584 × 11 output.  The 1954 row ranges
  tile the output (1954 · 4096 = 8,003,584), and what each point writes is the restriction to its
  rows of ONE function of the three arrays: row r holds row (clamped index word r) of the table, then
  row r of the gathered rows.
-/
import proofs.«422656_j42262478192914_3_alg».proof.Proof.Gen.KernelIdeal.Frame
import proofs.«422656_j42262478192914_3_alg».proof.Proof.KerPayload
import Idealize.ShloMosaic.Lib.Pipeline.Value

set_option maxRecDepth 16384

noncomputable section

namespace Cert.KernelIdeal.KerValue

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ)

/-- Row r of the padded output as a function of the table, the padded gathered rows and the padded index words. -/
def Gpad (tbl : FVec Ideal S16x8 .f32) (lp : FVec Ideal S8003584x3 .f32) (ip : IVec S8003584 32) :
    FVec Ideal S8003584x11 .f32 := fun i =>
  if h : (i 1).val < 8 then
    tbl (ix2 (⟨(clamp15 (ip (ix1 (⟨(i 0).val, idx2_lt0 i⟩ : Fin 8003584)))).toNat, clamp15_lt _⟩ : Fin 16) (⟨(i 1).val, h⟩ : Fin 8))
  else
    lp (ix2 (⟨(i 0).val, idx2_lt0 i⟩ : Fin 8003584) (⟨(i 1).val - 8, by have := idx2_lt1 i; omega⟩ : Fin 3))

theorem hz1 : (![0] : Fin 1 → Nat) = fun _ => 0 := funext fun a => by fin_cases a; rfl
theorem hz2 : (![0, 0] : Fin 2 → Nat) = fun _ => 0 := funext fun a => by fin_cases a <;> rfl

/-- The printed index maps over the grid: the index-word window, the gathered-rows window and the output window are
    at block row t, the table window at block (0, 0). -/
theorem idx_facts : ∀ t : Fin cfg0.N, win0_0.index t (0 : Fin 1) = t.val
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A grid point's number is below 1954. -/
theorem point_lt (t : Fin cfg0.N) : t.val < 1954 := by
  have h := t.isLt
  have e : cfg0.N = 1954 := N_0
  omega

/-- The three input blocks at a point and the three arrays they are blocks of, at their literal types. -/
abbrev pidBlk (c : Dev nD) (t : Fin cfg0.N) : Vec Ideal S4096 .i32 := iblk m c 0 t
abbrev locBlk (c : Dev nD) (t : Fin cfg0.N) : Vec Ideal S4096x3 .f32 := iblk m c 1 t
abbrev tblBlk (c : Dev nD) (t : Fin cfg0.N) : Vec Ideal S16x8 .f32 := iblk m c 2 t
abbrev pidArr (c : Dev nD) : IVec S8003584 32 := V m c main_v2
abbrev locArr (c : Dev nD) : FVec Ideal S8003584x3 .f32 := V m c main_v3
abbrev tblArr (c : Dev nD) : FVec Ideal S16x8 .f32 := V m c main_arg0

/-- Entry p of point t's index-word block is entry t·4096 + p of the padded index array. -/
theorem pidBlk_apply (c : Dev nD) (t : Fin cfg0.N) (p : Fin 4096) :
    pidBlk m c t (ix1 p) = pidArr m c (ix1 (⟨t.val * 4096 + p.val, by have := point_lt t; omega⟩ : Fin 8003584)) := by
  obtain ⟨e0, -⟩ := idx_facts t
  show V m c main_v2 (((cfg0.win 0).blk t).view.emb (ix1 p)) = V m c main_v2 _
  refine congrArg _ (funext fun a => Fin.ext ?_)
  match a with
  | ⟨0, _⟩ => show win0_0.index t (0 : Fin 1) * 4096 + 1 * p.val = t.val * 4096 + p.val; omega

/-- Entry (p, q) of point t's gathered-rows block is entry (t·4096 + p, q) of the padded gathered rows. -/
theorem locBlk_apply (c : Dev nD) (t : Fin cfg0.N) (p : Fin 4096) (q : Fin 3) :
    locBlk m c t (ix2 p q) = locArr m c (ix2 (⟨t.val * 4096 + p.val, by have := point_lt t; omega⟩ : Fin 8003584) q) := by
  obtain ⟨-, e0, e1, -⟩ := idx_facts t
  show V m c main_v3 (((cfg0.win 1).blk t).view.emb (ix2 p q)) = V m c main_v3 _
  refine congrArg _ (funext fun a => Fin.ext ?_)
  match a with
  | ⟨0, _⟩ => show win0_1.index t (0 : Fin 2) * 4096 + 1 * p.val = t.val * 4096 + p.val; omega
  | ⟨1, _⟩ => show win0_1.index t (1 : Fin 2) * 3 + 1 * q.val = q.val; omega

/-- The table block at every point is the whole table. -/
theorem tblBlk_apply (c : Dev nD) (t : Fin cfg0.N) (a : Fin 16) (b : Fin 8) :
    tblBlk m c t (ix2 a b) = tblArr m c (ix2 a b) := by
  obtain ⟨-, -, -, e0, e1, -⟩ := idx_facts t
  show V m c main_arg0 (((cfg0.win 2).blk t).view.emb (ix2 a b)) = V m c main_arg0 _
  refine congrArg _ (funext fun d => Fin.ext ?_)
  match d with
  | ⟨0, _⟩ => show win0_2.index t (0 : Fin 2) * 16 + 1 * a.val = a.val; omega
  | ⟨1, _⟩ => show win0_2.index t (1 : Fin 2) * 8 + 1 * b.val = b.val; omega

/-- WHAT POINT t WRITES BACK is its block of the one function of the three arrays. -/
theorem flushed_eq (c : Dev nD) (t : Fin cfg0.N) :
    (dats m 0 c).flushed 3 t
      = ((cfg0.win 3).blk t).view.read (Elt Ideal) (Gpad (tblArr m c) (locArr m c) (pidArr m c)) := by
  show (cfg0.win 3).cut (grid0.coords t) ((dats m 0 c).after 3 t) = _
  rw [after0_3]
  unfold out0_3
  rw [View.canon_unit_zero hz2]
  simp only [View.ld_unit_zero (S := S4096) hz1, View.ld_unit_zero (S := S16x8) hz2, View.ld_unit_zero (S := S4096x3) hz2]
  obtain ⟨-, -, -, -, -, e0, e1⟩ := idx_facts t
  have ht := point_lt t
  funext j
  obtain ⟨p, q, rfl⟩ : ∃ (p : Fin 4096) (q : Fin 11), j = ix2 p q := ⟨j 0, j 1, eq_ix2 j⟩
  have hemb : ((cfg0.win 3).blk t).view.emb (ix2 p q)
      = (ix2 (⟨t.val * 4096 + p.val, by omega⟩ : Fin 8003584) q : S8003584x11.Idx) := by
    funext a; apply Fin.ext
    match a with
    | ⟨0, _⟩ => show win0_3.index t (0 : Fin 2) * 4096 + 1 * p.val = t.val * 4096 + p.val; omega
    | ⟨1, _⟩ => show win0_3.index t (1 : Fin 2) * 11 + 1 * q.val = q.val; omega
  show k0_pay1 (pidBlk m c t) (tblBlk m c t) (locBlk m c t) (ix2 p q)
    = Gpad (tblArr m c) (locArr m c) (pidArr m c) (((cfg0.win 3).blk t).view.emb (ix2 p q))
  rw [hemb]
  by_cases hq : q.val < 8
  · refine (pay_left (pidBlk m c t) (tblBlk m c t) (locBlk m c t) p (⟨q.val, hq⟩ : Fin 8)).trans ?_
    rw [tblBlk_apply, pidBlk_apply]
    unfold Gpad
    rw [dif_pos (show ((ix2 (⟨t.val * 4096 + p.val, by omega⟩ : Fin 8003584) q : S8003584x11.Idx) 1).val < 8 from hq)]
  · have hq11 := q.isLt
    obtain ⟨q', rfl⟩ : ∃ q' : Fin 3, q = (⟨q'.val + 8, Nat.add_lt_add_right q'.isLt 8⟩ : Fin 11) :=
      ⟨⟨q.val - 8, by omega⟩, Fin.ext (by show q.val = q.val - 8 + 8; omega)⟩
    refine (pay_right (pidBlk m c t) (tblBlk m c t) (locBlk m c t) p q').trans ?_
    rw [locBlk_apply]
    unfold Gpad
    rw [dif_neg (show ¬((ix2 (⟨t.val * 4096 + p.val, by omega⟩ : Fin 8003584) (⟨q'.val + 8, Nat.add_lt_add_right q'.isLt 8⟩ : Fin 11) : S8003584x11.Idx) 1).val < 8 from hq)]
    refine congrArg _ (funext fun a => Fin.ext ?_)
    match a with
    | ⟨0, _⟩ => rfl
    | ⟨1, _⟩ => show q'.val = q'.val + 8 - 8; omega

/-- An index of the padded output is in point t's block iff its row is in t's row range. -/
theorem mem_blk (t : Fin cfg0.N) (i : S8003584x11.Idx) :
    i ∈ ((cfg0.win 3).blk t).view.set ↔ ∀ a : Fin 2, win0_3.index t a * S4096x11.size a ≤ (i a).val
      ∧ (i a).val < win0_3.index t a * S4096x11.size a + S4096x11.size a := by
  show i ∈ ((View.whole main_v4).slice (win0_3.rect t)).set ↔ _
  rw [View.set_slice_whole, Rect.mem_set_unit]
  exact Iff.rfl

/-- Every index of the padded output is in the block of the point its row divided by 4096 names. -/
theorem cover (i : S8003584x11.Idx) :
    ∃ t : Fin cfg0.N, (cfg0.win 3).flush t = true ∧ i ∈ ((cfg0.win 3).blk t).view.set := by
  have hi0 : (i 0).val < 8003584 := (i 0).isLt
  have hi1 : (i 1).val < 11 := (i 1).isLt
  have hN : cfg0.N = 1954 := N_0
  obtain ⟨t, ht⟩ : ∃ t : Fin cfg0.N, t.val = (i 0).val / 4096 := ⟨⟨(i 0).val / 4096, by rw [hN]; omega⟩, rfl⟩
  obtain ⟨-, -, -, -, -, e0, e1⟩ := idx_facts t
  refine ⟨t, flush0_3 t, ?_⟩
  rw [mem_blk]
  intro a
  match a with
  | ⟨0, _⟩ =>
    show win0_3.index t (0 : Fin 2) * 4096 ≤ (i 0).val ∧ (i 0).val < win0_3.index t (0 : Fin 2) * 4096 + 4096
    omega
  | ⟨1, _⟩ =>
    show win0_3.index t (1 : Fin 2) * 11 ≤ (i 1).val ∧ (i 1).val < win0_3.index t (1 : Fin 2) * 11 + 11
    omega

/-- THE PADDED OUTPUT after the run is that function of the three arrays as the region finds them. -/
theorem final (c : Dev nD) :
    (dats m 0 c).arrAt 3 cfg0.N = Gpad (tblArr m c) (locArr m c) (pidArr m c) :=
  (dats m 0 c).arrAt_eq_of_cover 3 (Gpad (tblArr m c) (locArr m c) (pidArr m c)) (fun t _ => flushed_eq m c t) (cover)

end Cert.KernelIdeal.KerValue

end
-- ==== Proof.KerHost.lean ====
/-
  The kernel's program around its region.

  Before the region the program clips the location ids into [0, 499999], takes the rows of the
  500,000 × 3 table at the clipped ids (the same chain of operations as the reference's take),
  and pads the index words with the word 0 and the taken rows with the value 0 from 8,000,000 to
  8,003,584 rows.  After the region it keeps the first 8,000,000 rows of the region's output.  For a
  row below 8,000,000 a padded array reads its unpadded operand; when every id is in range the clip
  and the clamp change nothing, so row r of the result is row pid(r) of the small table followed by
  row lid(r) of the large one.
-/
import proofs.«422656_j42262478192914_3_alg».proof.Proof.Gen.KernelIdeal.Frame
import proofs.«422656_j42262478192914_3_alg».proof.Proof.Gen.ReferenceIdeal
import proofs.«422656_j42262478192914_3_alg».proof.Proof.KerBlocks
import proofs.«422656_j42262478192914_3_alg».proof.Proof.RefRead
import proofs.«422656_j42262478192914_3_alg».proof.Proof.Spec
import Idealize.ShloMosaic.Lib.Pipeline.Value
import Idealize.ShloMosaic.Lib.KernelVsHost
import Idealize.ShloMosaic.Lib.StableHlo.Run
import Idealize.ShloMosaic.Lib.StableHlo.Predicate

set_option maxRecDepth 16384

noncomputable section

namespace Cert.KernelIdeal.KerValue

open Idealize.ShloMosaic Idealize.ShloMosaic.TcCoe Idealize.ShloMosaic.ValueIdx Idealize.SL.Sem
open Cert.KernelIdeal Cert.KernelIdeal.Gen Idealize.ShloMosaic.StableHlo
open Idealize.ShloMosaic.Pipeline (Dat)

variable (m : (ℓ : Loc nD τ sig) → Buf (Elt Ideal) ℓ) (ρ : Dev nD → PrngReg)

/-! ## Words -/

/-- A word in [0, hi], hi below 2³¹, is its own signed clamp into [0, hi]. -/
theorem clamp_of_le (hi w : BitVec 32) (hhi : hi.toNat < 2 ^ 31) (h : w.toNat ≤ hi.toNat) :
    IntOp.minsi hi (IntOp.maxsi 0#32 w) = w := by
  have hw : w.toInt = w.toNat := StableHlo.Predicate.toInt_eq_toNat_of_lt (by omega)
  have hh : hi.toInt = hi.toNat := StableHlo.Predicate.toInt_eq_toNat_of_lt hhi
  have h0 : (0#32 : BitVec 32).toInt = 0 := by decide
  unfold IntOp.minsi IntOp.maxsi
  simp only [BitVec.slt, h0, hw, hh, decide_eq_true_eq]
  split_ifs with h1 h2 h3
  all_goals first | rfl | (exfalso; omega) | (apply BitVec.eq_of_toNat_eq; simp only [BitVec.toNat_ofNat]; omega)

/-! ## Before the region -/

/-- The location ids clipped into [0, 499999]. -/
def clipLoc (ids : IVec S8000000 32) : IVec S8000000 32 :=
  minsi (broadcastInDim S8000000 ![] bcast_S_S8000000 (constantI S_ 32 499999#32))
    (maxsi (broadcastInDim S8000000 ![] bcast_S_S8000000 (constantI S_ 32 0#32)) ids)

/-- Ids that are all below 500,000 are their own clip. -/
theorem clipLoc_of_lt (ids : IVec S8000000 32) (h : ∀ r, (ids r).toNat < 500000) : clipLoc ids = ids := by
  funext r
  show IntOp.minsi 499999#32 (IntOp.maxsi 0#32 (ids r)) = ids r
  have e : (499999#32 : BitVec 32).toNat = 499999 := by decide
  exact clamp_of_le 499999#32 (ids r) (by rw [e]; norm_num) (by rw [e]; have := h r; omega)

/-- The region finds the table as launched. -/
theorem tblArr_eq (c : Dev nD) : tblArr m c = m ((c : Thread nD τ).loc main_arg0) := V_main_arg0 m c

/-- The region finds the index words padded with the word 0. -/
theorem pidArr_eq (c : Dev nD) :
    pidArr m c = pad S8003584 ![0] ![3584] ![0] (m ((c : Thread nD τ).loc main_arg2)) (constantI S_ 32 0#32)
      pads_S8000000_S8003584_035840 h_S_ := by
  show V m c main_v2 = _
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-! ## After the region -/

/-- The program's result: the first 8,000,000 rows of the padded output. -/
theorem tail_eq (c : Dev nD) :
    Pipeline.afterTail₀ cfgs (dats m) 0 (V0 m) [hostOps1] c main_v5
      = extractStridedSlice S8000000x11 ![0, 0] (Gpad (tblArr m c) (locArr m c) (pidArr m c))
          slices_S8003584x11_S8000000x11_0_0 := by
  unfold Pipeline.afterTail₀
  show StableHlo.after hostOps1 _ (Proc.devRef .tc main_v5) = _
  after_results
  exact congrArg (fun x => extractStridedSlice S8000000x11 ![0, 0] x slices_S8003584x11_S8000000x11_0_0)
    ((Pipeline.withArrays_arr spec0 launch0.win.arr_inj c (V0 m c) (fun w => (dats m 0 c).arrAt w cfg0.N) 3).trans (final m c))

end Cert.KernelIdeal.KerValue

end
-- ==== Proof.KerPrefix.lean ====
/-
  What the region finds in the padded array of taken rows.

  Before the region the program clips the location ids, takes the rows of the 500,000 × 3 table at
  the clipped ids and pads the taken rows with the value 0 to 8,003,584 rows.  Read back from the
  program's operations before the region, the array the region's second window is cut from is that
  padded take.

  The thirty-seven operations before the region are read in stretches, each over arbitrary contents
  before it: the two constants, the clip, the take as its start indices, the test of them and the
  gather with the selection, and the constants with the two pads.  A stretch's result is a short term
  of the buffers it reads, and a buffer read across a stretch is one the stretch does not write.  The
  take's chain of operations is the reference's second take, operation for operation, so its result
  is that take of the table and the clipped ids.  Nothing here looks inside an operation: the
  reduction, the gather and the pads stay folded throughout.
-/
import proofs.«422656_j42262478192914_3_alg».proof.Proof.KerHost

set_option maxRecDepth 16384

noncomputable section

namespace Cert.KernelIdeal.KerValue

open Idealize.ShloMosaic Idealize.ShloMosaic.TcCoe Idealize.ShloMosaic.ValueIdx Idealize.SL.Sem
open Cert.KernelIdeal Cert.KernelIdeal.Gen Idealize.ShloMosaic.StableHlo

section Stretches

variable {F : FTy → Type} [FloatOps F]

/-- Two lines folded one after the other are their concatenation folded. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## The constants and the clip -/

/-- The two constants of the clip's bounds. -/
theorem bounds_lo (V : Valuation τ sig (Elt F)) : after hostOps0 V (main_c : DevRef τ sig) = constantI S_ 32 0#32 := by
  simp only [after_cons, after_nil]
  rfl
theorem bounds_hi (V : Valuation τ sig (Elt F)) : after hostOps0 V (main_c_0 : DevRef τ sig) = constantI S_ 32 499999#32 := by
  simp only [after_cons, after_nil]
  rfl
/-- Neither constant is written over the table or the ids. -/
theorem bounds_keeps_tbl (V : Valuation τ sig (Elt F)) : after hostOps0 V (main_arg1 : DevRef τ sig) = V (main_arg1 : DevRef τ sig) := by
  simp only [after_cons, after_nil]
  rfl
theorem bounds_keeps_ids (V : Valuation τ sig (Elt F)) : after hostOps0 V (main_arg3 : DevRef τ sig) = V (main_arg3 : DevRef τ sig) := by
  simp only [after_cons, after_nil]
  rfl

/-- The clip reads its two bounds and the ids before the stretch. -/
theorem clip_eq (V : Valuation τ sig (Elt F)) :
    after hostOps0_1 V (main_v0 : DevRef τ sig)
      = minsi (broadcastInDim S8000000 ![] bcast_S_S8000000 (V (main_c_0 : DevRef τ sig)))
          (maxsi (broadcastInDim S8000000 ![] bcast_S_S8000000 (V (main_c : DevRef τ sig))) (V (main_arg3 : DevRef τ sig))) := by
  after_results_simp
  rfl
/-- The clip does not write the table. -/
theorem clip_keeps_tbl (V : Valuation τ sig (Elt F)) : after hostOps0_1 V (main_arg1 : DevRef τ sig) = V (main_arg1 : DevRef τ sig) := by
  simp only [after_cons, after_nil]
  rfl

/-! ## The take, in three stretches -/

/-- The take's first eight operations: the start indices. -/
abbrev opsTakeStart : List (HloOp τ sig (Elt F)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S8000000, .i32⟩) (broadcastInDim S8000000 ![] bcast_S_S8000000),
    StableHlo.TRef.binary (.of main_v0 : StableHlo.TRef sig ⟨S8000000, .i32⟩) (.of main_call1_v0 : StableHlo.TRef sig ⟨S8000000, .i32⟩) (.of main_call1_v1 : StableHlo.TRef sig ⟨S8000000, .i1⟩) (cmpi .slt),
    StableHlo.TRef.nullary (.of main_call1_c_0 : StableHlo.TRef sig ⟨S_, .i32⟩) (constantI S_ 32 500000#32),
    StableHlo.TRef.unary (.of main_call1_c_0 : StableHlo.TRef sig ⟨S_, .i32⟩) (.of main_call1_v2 : StableHlo.TRef sig ⟨S8000000, .i32⟩) (broadcastInDim S8000000 ![] bcast_S_S8000000),
    StableHlo.TRef.binary (.of main_v0 : StableHlo.TRef sig ⟨S8000000, .i32⟩) (.of main_call1_v2 : StableHlo.TRef sig ⟨S8000000, .i32⟩) (.of main_call1_v3 : StableHlo.TRef sig ⟨S8000000, .i32⟩) addi,
    StableHlo.TRef.ternary (.of main_call1_v1 : StableHlo.TRef sig ⟨S8000000, .i1⟩) (.of main_call1_v3 : StableHlo.TRef sig ⟨S8000000, .i32⟩) (.of main_v0 : StableHlo.TRef sig ⟨S8000000, .i32⟩) (.of main_call1_v4 : StableHlo.TRef sig ⟨S8000000, .i32⟩) select,
    StableHlo.TRef.unary main_call1_call0.v0 (.of main_call1_v5 : StableHlo.TRef sig ⟨S8000000x1, .i32⟩) (broadcastInDim S8000000x1 ![0] bcast_S8000000_S8000000x1_0) ]

/-- Its next ten: the test of the start indices. -/
abbrev opsTakeInside : List (HloOp τ sig (Elt F)) :=
  [ StableHlo.TRef.nullary (.of main_call1_c_1 : StableHlo.TRef sig ⟨S1, .i32⟩) (constantI S1 32 499999#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S8000000x1, .i32⟩) (broadcastInDim S8000000x1 ![] bcast_S_S8000000x1),
    StableHlo.TRef.binary (.of main_call1_v5 : StableHlo.TRef sig ⟨S8000000x1, .i32⟩) (.of main_call1_v6 : StableHlo.TRef sig ⟨S8000000x1, .i32⟩) (.of main_call1_v7 : StableHlo.TRef sig ⟨S8000000x1, .i1⟩) (cmpi .sge),
    StableHlo.TRef.unary (.of main_call1_c_1 : StableHlo.TRef sig ⟨S1, .i32⟩) (.of main_call1_v8 : StableHlo.TRef sig ⟨S1x1, .i32⟩) (broadcastInDim S1x1 ![1] bcast_S1_S1x1_1),
    StableHlo.TRef.unary (.of main_call1_v8 : StableHlo.TRef sig ⟨S1x1, .i32⟩) (.of main_call1_v9 : StableHlo.TRef sig ⟨S8000000x1, .i32⟩) (broadcastInDim S8000000x1 ![0, 1] bcast_S1x1_S8000000x1_0_1),
    StableHlo.TRef.binary (.of main_call1_v5 : StableHlo.TRef sig ⟨S8000000x1, .i32⟩) (.of main_call1_v9 : StableHlo.TRef sig ⟨S8000000x1, .i32⟩) (.of main_call1_v10 : StableHlo.TRef sig ⟨S8000000x1, .i1⟩) (cmpi .sle),
    StableHlo.TRef.binary (.of main_call1_v7 : StableHlo.TRef sig ⟨S8000000x1, .i1⟩) (.of main_call1_v10 : StableHlo.TRef sig ⟨S8000000x1, .i1⟩) (.of main_call1_v11 : StableHlo.TRef sig ⟨S8000000x1, .i1⟩) andi,
    StableHlo.TRef.nullary (.of main_call1_c_3 : StableHlo.TRef sig ⟨S_, .i1⟩) (constantI S_ 1 1#1),
    StableHlo.TRef.binary (.of main_call1_v11 : StableHlo.TRef sig ⟨S8000000x1, .i1⟩) (.of main_call1_c_3 : StableHlo.TRef sig ⟨S_, .i1⟩) (.of main_call1_v12 : StableHlo.TRef sig ⟨S8000000, .i1⟩) (fun x v => Host.reduce IntOp.andi x v reducesTo_S8000000x1_S8000000_d1 h_S_) ]

/-- Its last five: the gather, the fill value and the selection between them. -/
abbrev opsTakeRows : List (HloOp τ sig (Elt F)) :=
  [ StableHlo.TRef.binary (.of main_arg1 : StableHlo.TRef sig ⟨S500000x3, .f32⟩) (.of main_call1_v5 : StableHlo.TRef sig ⟨S8000000x1, .i32⟩) (.of main_call1_v13 : StableHlo.TRef sig ⟨S8000000x3, .f32⟩) (fun x i => Host.gather gather_S500000x3_S8000000x1_S8000000x3_1_0_n_n_0_1_13 x i),
    StableHlo.TRef.unary (.of main_call1_v12 : StableHlo.TRef sig ⟨S8000000, .i1⟩) (.of main_call1_v14 : StableHlo.TRef sig ⟨S8000000x3, .i1⟩) (broadcastInDim S8000000x3 ![0] bcast_S8000000_S8000000x3_0),
    StableHlo.TRef.nullary (.of main_call1_cst : StableHlo.TRef sig ⟨S_, .f32⟩) (constant S_ .f32 0x7FC00000#32),
    StableHlo.TRef.unary (.of main_call1_cst : StableHlo.TRef sig ⟨S_, .f32⟩) (.of main_call1_v15 : StableHlo.TRef sig ⟨S8000000x3, .f32⟩) (broadcastInDim S8000000x3 ![] bcast_S_S8000000x3),
    StableHlo.TRef.ternary (.of main_call1_v14 : StableHlo.TRef sig ⟨S8000000x3, .i1⟩) (.of main_call1_v13 : StableHlo.TRef sig ⟨S8000000x3, .f32⟩) (.of main_call1_v15 : StableHlo.TRef sig ⟨S8000000x3, .f32⟩) (.of main_v1 : StableHlo.TRef sig ⟨S8000000x3, .f32⟩) select ]

theorem take_split : (hostOps0_2 : List (HloOp τ sig (Elt F))) = opsTakeStart ++ (opsTakeInside ++ opsTakeRows) := rfl

/-- The start indices are the reference's, of the clipped ids before the stretch. -/
theorem takeStart_eq (V : Valuation τ sig (Elt F)) :
    after opsTakeStart V (main_call1_v5 : DevRef τ sig) = Cert.ReferenceIdeal.RefValue.locStart (V (main_v0 : DevRef τ sig)) := by
  after_results_simp
  rfl

attribute [local irreducible] Host.reduce in
/-- The test reads the start indices before the stretch. -/
theorem takeInside_eq (V : Valuation τ sig (Elt F)) :
    after opsTakeInside V (main_call1_v12 : DevRef τ sig)
      = Host.reduce IntOp.andi
          (andi (cmpi .sge (V (main_call1_v5 : DevRef τ sig)) (broadcastInDim S8000000x1 ![] bcast_S_S8000000x1 (constantI S_ 32 0#32)))
            (cmpi .sle (V (main_call1_v5 : DevRef τ sig)) (broadcastInDim S8000000x1 ![0, 1] bcast_S1x1_S8000000x1_0_1
              (broadcastInDim S1x1 ![1] bcast_S1_S1x1_1 (constantI S1 32 499999#32)))))
          (constantI S_ 1 1#1) reducesTo_S8000000x1_S8000000_d1 h_S_ := by
  after_results_simp
  rfl

attribute [local irreducible] Host.gather in
/-- The selection reads the table, the start indices and the test's outcome before the stretch. -/
theorem takeRows_eq (V : Valuation τ sig (Elt F)) :
    after opsTakeRows V (main_v1 : DevRef τ sig)
      = select (broadcastInDim S8000000x3 ![0] bcast_S8000000_S8000000x3_0 (V (main_call1_v12 : DevRef τ sig)))
          (Host.gather gather_S500000x3_S8000000x1_S8000000x3_1_0_n_n_0_1_13 (V (main_arg1 : DevRef τ sig)) (V (main_call1_v5 : DevRef τ sig)))
          (broadcastInDim S8000000x3 ![] bcast_S_S8000000x3 (constant S_ .f32 0x7FC00000#32)) := by
  after_results_simp
  rfl

/-- The first two stretches write neither the table nor, the second, the start indices. -/
theorem takeStart_keeps_tbl (V : Valuation τ sig (Elt F)) : after opsTakeStart V (main_arg1 : DevRef τ sig) = V (main_arg1 : DevRef τ sig) := by
  simp only [after_cons, after_nil]
  rfl
theorem takeInside_keeps_tbl (V : Valuation τ sig (Elt F)) : after opsTakeInside V (main_arg1 : DevRef τ sig) = V (main_arg1 : DevRef τ sig) := by
  simp only [after_cons, after_nil]
  rfl
theorem takeInside_keeps_start (V : Valuation τ sig (Elt F)) : after opsTakeInside V (main_call1_v5 : DevRef τ sig) = V (main_call1_v5 : DevRef τ sig) := by
  simp only [after_cons, after_nil]
  rfl

attribute [local irreducible] Host.reduce Host.gather in
/-- The take's operations leave its result buffer at the reference's second take of the table and the clipped ids
    before them: the two chains are the same operations, their side conditions proved on each side. -/
theorem take_eq (V : Valuation τ sig (Elt F)) :
    after hostOps0_2 V (main_v1 : DevRef τ sig)
      = Cert.ReferenceIdeal.RefValue.takeLoc (V (main_arg1 : DevRef τ sig)) (V (main_v0 : DevRef τ sig)) := by
  rw [take_split, after_append, after_append, takeRows_eq, takeInside_eq, takeInside_keeps_tbl, takeInside_keeps_start,
    takeStart_eq, takeStart_keeps_tbl]
  rfl

/-! ## The constants and the pads -/

/-- All the operations before the region, stretch after stretch. -/
theorem prefix_split :
    (List.flatten [hostOps0, hostOps0_1, hostOps0_2, hostOps0_3, hostOps0_4, hostOps0_5, hostOps0_6] : List (HloOp τ sig (Elt F)))
      = hostOps0 ++ (hostOps0_1 ++ (hostOps0_2 ++ (hostOps0_3 ++ (hostOps0_4 ++ (hostOps0_5 ++ hostOps0_6))))) := by
  simp only [List.flatten_cons, List.flatten_nil, List.append_nil]

/-- The constants and the pad of the ids do not write the taken rows. -/
theorem padIds_keeps_rows (V : Valuation τ sig (Elt F)) : after hostOps0_3 V (main_v1 : DevRef τ sig) = V (main_v1 : DevRef τ sig) := by
  simp only [after_cons, after_nil]
  rfl
theorem padIds_keeps_rows' (V : Valuation τ sig (Elt F)) : after hostOps0_4 V (main_v1 : DevRef τ sig) = V (main_v1 : DevRef τ sig) := by
  simp only [after_cons, after_nil]
  rfl

attribute [local irreducible] pad in
/-- The pad of the taken rows reads them before the stretch, and pads with the value 0. -/
theorem padRows_eq (V : Valuation τ sig (Elt F)) :
    after hostOps0_6 (after hostOps0_5 V) (main_v3 : DevRef τ sig)
      = pad S8003584x3 ![0, 0] ![3584, 0] ![0, 0] (V (main_v1 : DevRef τ sig)) (sitofp .f32 (constantI S_ 32 0#32))
          pads_S8000000x3_S8003584x3_035840_000 h_S_ := by
  after_results_simp
  all_goals rfl

end Stretches

variable (m : (ℓ : Loc nD τ sig) → Buf (Elt Ideal) ℓ)

attribute [local irreducible] pad Host.reduce Host.gather in
/-- The region finds the rows taken at the clipped location ids, padded with the value 0. -/
theorem locArr_eq (c : Dev nD) :
    locArr m c = pad S8003584x3 ![0, 0] ![3584, 0] ![0, 0]
      (Cert.ReferenceIdeal.RefValue.takeLoc (F := Ideal) (m ((c : Thread nD τ).loc main_arg1))
        (clipLoc (m ((c : Thread nD τ).loc main_arg3))))
      (sitofp (F := Ideal) .f32 (constantI S_ 32 0#32))
      pads_S8000000x3_S8003584x3_035840_000 h_S_ := by
  show V m c main_v3 = _
  dsimp only [Gen.V, Gen.V0]
  rw [prefix_split, after_append, after_append, after_append, after_append, after_append, after_append,
    padRows_eq, padIds_keeps_rows', padIds_keeps_rows, take_eq, clip_keeps_tbl, clip_eq,
    bounds_hi, bounds_lo, bounds_keeps_tbl, bounds_keeps_ids]
  rfl

end Cert.KernelIdeal.KerValue

end
-- ==== Proof.KerRun.lean ====
/-
  The kernel's program computes the target function when every id is in range.

  Row r < 8,000,000 of the result is row r of the padded output: eight entries of row
  (clamped index word r) of the small table, then row r of the padded taken rows.  Below 8,000,000
  the padded index words are the process ids and the padded taken rows are the rows taken at the
  clipped location ids.  A process id below 16 is its own clamp; location ids below 500,000 are
  their own clip, and the take at ids in range reads the table's row at the id.
-/
import proofs.«422656_j42262478192914_3_alg».proof.Proof.KerPrefix

set_option maxRecDepth 16384

noncomputable section

namespace Cert.KernelIdeal.KerValue

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ) (ρ : Dev nD → PrngReg)

/-- Below 8,000,000 the padded index words are the process ids. -/
theorem pidArr_apply (c : Dev nD) (r : Fin 8000000) :
    pidArr m c (ix1 (⟨r.val, by have := r.isLt; omega⟩ : Fin 8003584)) = m ((c : Thread nD τ).loc main_arg2) (ix1 r) := by
  rw [pidArr_eq]
  exact pad_apply_of_inside ![0] ![3584] ![0] _ _ pads_S8000000_S8003584_035840 h_S_
    (ix1 (⟨r.val, by have := r.isLt; omega⟩ : Fin 8003584)) (ix1 r) (fun a => by
      match a with
      | ⟨0, _⟩ => show r.val = 0 + r.val * (0 + 1); omega)

/-- Below 8,000,000 the padded taken rows are the rows taken at the clipped location ids. -/
theorem locArr_apply (c : Dev nD) (r : Fin 8000000) (q : Fin 3) :
    locArr m c (ix2 (⟨r.val, by have := r.isLt; omega⟩ : Fin 8003584) q)
      = Cert.ReferenceIdeal.RefValue.takeLoc (F := Ideal) (m ((c : Thread nD τ).loc main_arg1))
          (clipLoc (m ((c : Thread nD τ).loc main_arg3))) (ix2 r q) := by
  rw [locArr_eq]
  exact pad_apply_of_inside ![0, 0] ![3584, 0] ![0, 0] _ _ pads_S8000000x3_S8003584x3_035840_000 h_S_
    (ix2 (⟨r.val, by have := r.isLt; omega⟩ : Fin 8003584) q) (ix2 r q) (fun a => by
      match a with
      | ⟨0, _⟩ => show r.val = 0 + r.val * (0 + 1); omega
      | ⟨1, _⟩ => show q.val = 0 + q.val * (0 + 1); omega)

/-- The first 8,000,000 rows of the padded output, for ANY padded arrays that below 8,000,000 read the process ids
    and the large table's rows at the location ids, and process ids below 16: the target function. -/
theorem slice_Gpad_eq (tbl : FVec Ideal S16x8 .f32) (lp : FVec Ideal S8003584x3 .f32) (ip : IVec S8003584 32)
    (x1 : FVec Ideal S500000x3 .f32) (i2 i3 : IVec S8000000 32)
    (hip : ∀ r : Fin 8000000, ip (ix1 (⟨r.val, by have := r.isLt; omega⟩ : Fin 8003584)) = i2 (ix1 r))
    (hlp : ∀ (r : Fin 8000000) (q : Fin 3), lp (ix2 (⟨r.val, by have := r.isLt; omega⟩ : Fin 8003584) q)
      = x1 (ix2 (Cert.Spec.rowOf 500000 (by norm_num) (i3 (ix1 r))) q))
    (h2 : ∀ r, (i2 r).toNat < 16) :
    extractStridedSlice S8000000x11 ![0, 0] (Gpad tbl lp ip) slices_S8003584x11_S8000000x11_0_0
      = Cert.Spec.G tbl x1 i2 i3 := by
  funext i
  obtain ⟨r, q, rfl⟩ : ∃ (r : Fin 8000000) (q : Fin 11), i = ix2 r q := ⟨i 0, i 1, eq_ix2 i⟩
  have hr := r.isLt
  rw [extractStridedSlice_apply ![0, 0] _ slices_S8003584x11_S8000000x11_0_0 (ix2 r q)
    (ix2 (⟨r.val, by omega⟩ : Fin 8003584) q) (fun a => by
      match a with
      | ⟨0, _⟩ => show r.val = 0 + r.val; omega
      | ⟨1, _⟩ => show q.val = 0 + q.val; omega)]
  unfold Gpad Cert.Spec.G
  by_cases hq : q.val < 8
  · rw [dif_pos (show ((ix2 (⟨r.val, by omega⟩ : Fin 8003584) q : S8003584x11.Idx) 1).val < 8 from hq),
      dif_pos (show ((ix2 r q : (⟨2, ![8000000, 11]⟩ : Shape).Idx) 1).val < 8 from hq)]
    refine congrArg tbl (funext fun a => Fin.ext ?_)
    match a with
    | ⟨0, _⟩ =>
      show (clamp15 (ip (ix1 (⟨r.val, _⟩ : Fin 8003584)))).toNat
        = (Cert.Spec.rowOf 16 _ (i2 (ix1 (⟨r.val, _⟩ : Fin 8000000)))).val
      rw [hip r, clamp15_of_lt _ (h2 _), Cert.Spec.rowOf_val _ _ (h2 _)]
    | ⟨1, _⟩ => rfl
  · rw [dif_neg (show ¬((ix2 (⟨r.val, by omega⟩ : Fin 8003584) q : S8003584x11.Idx) 1).val < 8 from hq),
      dif_neg (show ¬((ix2 r q : (⟨2, ![8000000, 11]⟩ : Shape).Idx) 1).val < 8 from hq)]
    have hq11 := q.isLt
    exact hlp r (⟨q.val - 8, by omega⟩ : Fin 3)

/-- THE RESULT, when every process id is below 16 and every location id below 500,000, is the target function of
    the four argument arrays. -/
theorem result_eq (c : Dev nD)
    (h2 : ∀ r, (m ((c : Thread nD τ).loc main_arg2) r).toNat < 16)
    (h3 : ∀ r, (m ((c : Thread nD τ).loc main_arg3) r).toNat < 500000) :
    extractStridedSlice S8000000x11 ![0, 0] (Gpad (tblArr m c) (locArr m c) (pidArr m c))
        slices_S8003584x11_S8000000x11_0_0
      = Cert.Spec.G (m ((c : Thread nD τ).loc main_arg0)) (m ((c : Thread nD τ).loc main_arg1))
          (m ((c : Thread nD τ).loc main_arg2)) (m ((c : Thread nD τ).loc main_arg3)) := by
  have hlp : ∀ (r : Fin 8000000) (q : Fin 3), locArr m c (ix2 (⟨r.val, by have := r.isLt; omega⟩ : Fin 8003584) q)
      = m ((c : Thread nD τ).loc main_arg1)
          (ix2 (Cert.Spec.rowOf 500000 (by norm_num) (m ((c : Thread nD τ).loc main_arg3) (ix1 r))) q) := fun r q => by
    refine (locArr_apply m c r q).trans ?_
    rw [clipLoc_of_lt _ h3]
    exact Cert.ReferenceIdeal.RefValue.takeLoc_apply _ _ h3 r q
  rw [slice_Gpad_eq (tblArr m c) (locArr m c) (pidArr m c) (m ((c : Thread nD τ).loc main_arg1))
    (m ((c : Thread nD τ).loc main_arg2)) (m ((c : Thread nD τ).loc main_arg3)) (pidArr_apply m c) hlp h2, tblArr_eq]

/-- THE KERNEL'S RUN, under the range facts on every device: every weakly fair execution terminates with the
    result at the target function of the arguments and the arguments unchanged. -/
theorem run
    (h2 : ∀ (c : Dev nD) r, (m ((c : Thread nD τ).loc main_arg2) r).toNat < 16)
    (h3 : ∀ (c : Dev nD) r, (m ((c : Thread nD τ).loc main_arg3) r).toNat < 500000) :
    θ_run defs (onTc (τ := τ) (main (F := Ideal))) ⟨m, fun _ => 0, ρ⟩ (fun r => ∀ c : Dev nD,
      r.2.mem ((c.tc : Thread nD τ).loc main_v5)
        = Cert.Spec.G (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v5 (Pipeline.mem_restRefs_of main_v5 (by decide) (by decide))).trans
        ((tail_eq m c).trans (result_eq m c (h2 c) (h3 c))),
      ((h c).1 2).trans (((dats m 0 c).arrAt_in 2 rfl _).trans ((A_eq m c 2).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KerValue

end
-- ==== Proof.lean ====
/-
  The certificate: the kernel's program and the reference compute the same 8,000,000 × 11 array.

  Row r of the result is row pid(r) of a 16 × 8 table followed by row lid(r) of a 500,000 × 3 table
  (Proof/Spec.lean).  The precondition says the tables' entries are finite and every process id lies
  in [0, 16), every location id in [0, 500000) (Proof/PreRange.lean reads the ranges out of it; the
  finiteness is never used: the kernel's one-hot product multiplies a table entry by exactly 0 or 1,
  and 0 · x = 0 for every extended real x).

  The reference (Proof/RefTerm.lean, Proof/RefLine.lean, Proof/RefRun.lean, Proof/RefRead.lean) takes
  the rows with two gathers whose index normalisation and fill do nothing for ids in range.  The
  kernel's program (Proof/KerPayload.lean, Proof/KerBlocks.lean, Proof/KerHost.lean,
  Proof/KerPrefix.lean, Proof/KerRun.lean) takes the large table's rows on the host at clipped ids,
  pads to a multiple of 4096 rows, and in 1954 grid points selects the small table's rows by a
  product with a one-hot matrix of the clamped ids; the first 8,000,000 rows are kept.
-/
import proofs.«422656_j42262478192914_3_alg».proof.Defs
import proofs.«422656_j42262478192914_3_alg».proof.Proof.Gen.Kernel
import proofs.«422656_j42262478192914_3_alg».proof.Proof.Gen.Kernel.Skeleton
import proofs.«422656_j42262478192914_3_alg».proof.Proof.Gen.Kernel.Launch
import proofs.«422656_j42262478192914_3_alg».proof.Proof.Gen.Kernel.Points
import proofs.«422656_j42262478192914_3_alg».proof.Proof.Gen.Kernel.Frame
import proofs.«422656_j42262478192914_3_alg».proof.Proof.Gen.KernelIdeal
import proofs.«422656_j42262478192914_3_alg».proof.Proof.Gen.KernelIdeal.Skeleton
import proofs.«422656_j42262478192914_3_alg».proof.Proof.Gen.KernelIdeal.Launch
import proofs.«422656_j42262478192914_3_alg».proof.Proof.Gen.KernelIdeal.Points
import proofs.«422656_j42262478192914_3_alg».proof.Proof.Gen.KernelIdeal.Frame
import proofs.«422656_j42262478192914_3_alg».proof.Proof.Gen.ReferenceIdeal
import proofs.«422656_j42262478192914_3_alg».proof.Proof.Gen.Pre_finite_inputs
import proofs.«422656_j42262478192914_3_alg».proof.Proof.PreRange
import proofs.«422656_j42262478192914_3_alg».proof.Proof.RefRun
import proofs.«422656_j42262478192914_3_alg».proof.Proof.RefRead
import proofs.«422656_j42262478192914_3_alg».proof.Proof.KerRun
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The reference runs and keeps its arguments: its run, with the result dropped. -/
theorem frame_ri : Cert.frame_ReferenceIdeal := fun m ρ _ =>
  (θ_run Cert.ReferenceIdeal.defs _ _).mono (fun _ h c => (h c).2)
    (Cert.ReferenceIdeal.RefValue.run (F := Ideal) m ρ)

/-- Under the precondition both programs end with the target function of the arguments as their result. -/
theorem algebraic : Cert.algebraic_KernelIdeal_ReferenceIdeal := by
  intro m ρ m' ρ' hpre hagree
  have hr := fun c => Cert.PreRange.ids_in_range _ _ _ _ (hpre c)
  refine ⟨_, Cert.KernelIdeal.KerValue.run m ρ (fun c => (hr c).1) (fun c => (hr c).2), ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2.1, (hagree c).2.2.1, (hagree c).2.2.2]
  exact Cert.ReferenceIdeal.RefValue.refTerm_eq_G _ _ _ _ (hr c).1 (hr c).2

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
